-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000 : Shape := ⟨1, ![100000]⟩
abbrev S100000x172 : Shape := ⟨2, ![100000, 172]⟩
abbrev S100000x100 : Shape := ⟨2, ![100000, 100]⟩
abbrev S528x128 : Shape := ⟨2, ![528, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x172 : S_.BroadcastsInDim S100000x172 (![] : Fin 0 → Fin S100000x172.rank)
  reducesTo_S100000x172_S_d0_1 : S100000x172.ReducesTo [0, 1] S_
  bcast_S_S100000x100 : S_.BroadcastsInDim S100000x100 (![] : Fin 0 → Fin S100000x100.rank)
  reducesTo_S100000x100_S_d0_1 : S100000x100.ReducesTo [0, 1] S_
  bcast_S_S528x128 : S_.BroadcastsInDim S528x128 (![] : Fin 0 → Fin S528x128.rank)
  reducesTo_S528x128_S_d0_1 : S528x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x128 .f32) (main_arg12 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_v13 : IVec S_ 1) (main_v16 : IVec S528x128 1) : IVec S_ 1 :=
  let main_c_5 : IVec S_ 1 := constantI S_ 1 1#1
  let main_v17 : IVec S_ 1 := (fun x v => Host.reduce IntOp.andi x v reducesTo_S528x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x128 .f32) (main_arg1 : IVec S100000 32) (main_arg2 : IVec S100000 32) (main_arg3 : FVec F S100000x172 .f32) (main_arg4 : FVec F S100000x100 .f32) (main_arg5 : FVec F S528x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x172 .f32 := Host.absf main_arg3
  let main_cst_0 : FVec F S_ .f32 := constant S_ .f32 0x7F800000#32
  let main_v5 : FVec F S100000x172 .f32 := broadcastInDim S100000x172 ![] bcast_S_S100000x172 main_cst_0
  let main_v6 : IVec S100000x172 1 := cmpf .olt main_v4 main_v5
  let main_c_1 : IVec S_ 1 := constantI S_ 1 1#1
  let main_v7 : IVec S_ 1 := (fun x v => Host.reduce IntOp.andi x v reducesTo_S100000x172_S_d0_1 h_S_) main_v6 main_c_1
  let main_v8 : IVec S_ 1 := andi main_v3 main_v7
  let main_v9 : FVec F S100000x100 .f32 := Host.absf main_arg4
  let main_cst_2 : FVec F S_ .f32 := constant S_ .f32 0x7F800000#32
  let main_v10 : FVec F S100000x100 .f32 := broadcastInDim S100000x100 ![] bcast_S_S100000x100 main_cst_2
  let main_v11 : IVec S100000x100 1 := cmpf .olt main_v9 main_v10
  let main_c_3 : IVec S_ 1 := constantI S_ 1 1#1
  let main_v12 : IVec S_ 1 := (fun x v => Host.reduce IntOp.andi x v reducesTo_S100000x100_S_d0_1 h_S_) main_v11 main_c_3
  let main_v13 : IVec S_ 1 := andi main_v8 main_v12
  let main_v14 : FVec F S528x128 .f32 := Host.absf main_arg5
  let main_cst_4 : FVec F S_ .f32 := constant S_ .f32 0x7F800000#32
  let main_v15 : FVec F S528x128 .f32 := broadcastInDim S528x128 ![] bcast_S_S528x128 main_cst_4
  let main_v16 : IVec S528x128 1 := cmpf .olt main_v14 main_v15
  fn_part1 (F := F) main_arg6 main_arg7 main_arg8 main_arg9 main_arg10 main_arg11 main_arg12 main_v13 main_v16
-- ==== Kernel.lean ====
abbrev S200000x128 : Shape := ⟨2, ![200000, 128]⟩
abbrev S100000 : Shape := ⟨1, ![100000]⟩
abbrev S100000x172 : Shape := ⟨2, ![100000, 172]⟩
abbrev S100000x100 : Shape := ⟨2, ![100000, 100]⟩
abbrev S528x128 : Shape := ⟨2, ![528, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S100000x1 : Shape := ⟨2, ![100000, 1]⟩
abbrev S100000x128 : Shape := ⟨2, ![100000, 128]⟩
abbrev S1x128 : Shape := ⟨2, ![1, 128]⟩
abbrev S2000x128 : Shape := ⟨2, ![2000, 128]⟩
abbrev S2000x172 : Shape := ⟨2, ![2000, 172]⟩
abbrev S2000x100 : Shape := ⟨2, ![2000, 100]⟩
abbrev S2000x528 : Shape := ⟨2, ![2000, 528]⟩
abbrev S2000x256 : Shape := ⟨2, ![2000, 256]⟩
abbrev S100000x1x128 : Shape := ⟨3, ![100000, 1, 128]⟩
abbrev S100000x2x128 : Shape := ⟨3, ![100000, 2, 128]⟩
abbrev S100000x2 : Shape := ⟨2, ![100000, 2]⟩
abbrev S200000 : Shape := ⟨1, ![200000]⟩
abbrev S200000x1 : Shape := ⟨2, ![200000, 1]⟩

abbrev nBuf : Space → Nat
  | .hbm => 73
  | .vmem => 20
  | .smem => 0
  | _ => 0

abbrev bufTy : (tb : Table) → Fin (tcTables nBuf tb) → BufTy
  | .hbm, ⟨0, _⟩ => ⟨S200000x128, .f32⟩
  | .hbm, ⟨1, _⟩ => ⟨S100000, .i32⟩
  | .hbm, ⟨2, _⟩ => ⟨S100000, .i32⟩
  | .hbm, ⟨3, _⟩ => ⟨S100000x172, .f32⟩
  | .hbm, ⟨4, _⟩ => ⟨S100000x100, .f32⟩
  | .hbm, ⟨5, _⟩ => ⟨S528x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x128, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x128, .f32⟩
  | .hbm, ⟨31, _⟩ => ⟨S528x128, .bf16⟩
  | .hbm, ⟨32, _⟩ => ⟨S128x128, .bf16⟩
  | .hbm, ⟨33, _⟩ => ⟨S256x128, .bf16⟩
  | .hbm, ⟨34, _⟩ => ⟨S128x128, .bf16⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x1x128, .f32⟩
  | .hbm, ⟨42, _⟩ => ⟨S100000x1x128, .f32⟩
  | .hbm, ⟨43, _⟩ => ⟨S100000x2x128, .f32⟩
  | .hbm, ⟨44, _⟩ => ⟨S200000x128, .f32⟩
  | .hbm, ⟨45, _⟩ => ⟨S100000x1, .i32⟩
  | .hbm, ⟨46, _⟩ => ⟨S100000x1, .i32⟩
  | .hbm, ⟨47, _⟩ => ⟨S100000x2, .i32⟩
  | .hbm, ⟨48, _⟩ => ⟨S200000, .i32⟩
  | .hbm, ⟨49, _⟩ => ⟨S200000, .i32⟩
  | .hbm, ⟨50, _⟩ => ⟨S_, .i32⟩
  | .hbm, ⟨51, _⟩ => ⟨S200000, .i32⟩
  | .hbm, ⟨52, _⟩ => ⟨S200000x1, .i32⟩
  | .hbm, ⟨53, _⟩ => ⟨S200000, .i32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S_, .i32⟩
  | .hbm, ⟨59, _⟩ => ⟨S200000, .i32⟩
  | .hbm, ⟨60, _⟩ => ⟨S200000, .i32⟩
  | .hbm, ⟨61, _⟩ => ⟨S_, .i32⟩
  | .hbm, ⟨62, _⟩ => ⟨S200000, .i32⟩
  | .hbm, ⟨63, _⟩ => ⟨S200000, .i1⟩
  | .hbm, ⟨64, _⟩ => ⟨S_, .i32⟩
  | .hbm, ⟨65, _⟩ => ⟨S200000, .i32⟩
  | .hbm, ⟨66, _⟩ => ⟨S200000, .i32⟩
  | .hbm, ⟨67, _⟩ => ⟨S200000, .i32⟩
  | .hbm, ⟨68, _⟩ => ⟨S200000x1, .i32⟩
  | .hbm, ⟨69, _⟩ => ⟨S200000x128, .f32⟩
  | .hbm, ⟨70, _⟩ => ⟨S200000x1, .i1⟩
  | .hbm, ⟨71, _⟩ => ⟨S200000x128, .i1⟩
  | .hbm, ⟨72, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x172, .f32⟩
  | .local _ .vmem, ⟨5, _⟩ => ⟨S2000x172, .f32⟩
  | .local _ .vmem, ⟨6, _⟩ => ⟨S2000x100, .f32⟩
  | .local _ .vmem, ⟨7, _⟩ => ⟨S2000x100, .f32⟩
  | .local _ .vmem, ⟨8, _⟩ => ⟨S528x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S256x128, .bf16⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_call0_v0 : Ref sig .tc := ⟨.hbm, 58, rfl⟩
abbrev main_call0_v1 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x172 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S528x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x172_S2000x172_0_0 : ∀ a, (![0, 0] : Fin 2 → Nat) a + S2000x172.size a ≤ S2000x172.size a
  h_S2000x172 : 0 < S2000x172.numel
  inb_S2000x100_S2000x100_0_0 : ∀ a, (![0, 0] : Fin 2 → Nat) a + S2000x100.size a ≤ S2000x100.size a
  h_S2000x100 : 0 < S2000x100.numel
  concatenates_S2000x128_S2000x128_S2000x172_S2000x100_S2000x528_d1 : Shape.Concatenates [S2000x128, S2000x128, S2000x172, S2000x100] S2000x528 1
  inb_S528x128_S528x128_0_0 : ∀ a, (![0, 0] : Fin 2 → Nat) a + S528x128.size a ≤ S528x128.size a
  h_S528x128 : 0 < S528x128.numel
  shapeCasts_S528x128_S528x128 : S528x128.ShapeCasts S528x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S100000x128_S100000x1x128_0_2 : S100000x128.BroadcastsInDim S100000x1x128 (![0, 2] : Fin 2 → Fin S100000x1x128.rank)
  concatenates_S100000x1x128_S100000x1x128_S100000x2x128_d1 : Shape.Concatenates [S100000x1x128, S100000x1x128] S100000x2x128 1
  shapeCasts_S100000x2x128_S200000x128 : S100000x2x128.ShapeCasts S200000x128
  concatenates_S100000x1_S100000x1_S100000x2_d1 : Shape.Concatenates [S100000x1, S100000x1] S100000x2 1
  shapeCasts_S100000x2_S200000 : S100000x2.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  gather_S200000x128_S100000x1_S100000x128_1_0_n_n_0_1_1128_wf : GatherDims.WF S200000x128 S100000x1 S100000x128 [1] [0] [] [0] [] 1 ![1, 128]
  dot_S2000x528_S528x128_S2000x128_1_0_0_1_n_n_wf : DotDims.WF S2000x528 S528x128 S2000x128 [1] [0] [0] [1] [] []
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  scatter_S200000_S200000x1_S200000_n_0_0_1_wf : ScatterDims.WF S200000 S200000x1 S200000 [] [0] [0] 1
  gather_S200000x128_S200000x1_S200000x128_1_0_n_n_0_1_1128_wf : GatherDims.WF S200000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x172.size a ≤ S100000x172.size a
  hwx0_2 : ∀ i : grid0.Coords, EltTy.bits .f32 = 32 ∨ (Rect.block (s := S100000x172) S2000x172.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x100.size a ≤ S100000x100.size a
  hwx0_3 : ∀ i : grid0.Coords, EltTy.bits .f32 = 32 ∨ (Rect.block (s := S100000x100) S2000x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S528x128.size a ≤ S528x128.size a
  hwx0_4 : ∀ i : grid0.Coords, EltTy.bits .bf16 = 32 ∨ (Rect.block (s := S528x128) S528x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S100000x128.size a
  hwx0_12 : ∀ i : grid0.Coords, EltTy.bits .f32 = 32 ∨ (Rect.block (s := S100000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S2000x528_S528x128_S2000x128_1_0_0_1_n_n : DotDims S2000x528 S528x128 S2000x128 where
  lhsContracting := [1]
  rhsContracting := [0]
  lhsNonContracting := [0]
  rhsNonContracting := [1]
  lhsBatch := []
  rhsBatch := []
  wf := dot_S2000x528_S528x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x172.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2000x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S528x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22_0) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v22_1) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S200000x128 : Shape := ⟨2, ![200000, 128]⟩
abbrev S100000 : Shape := ⟨1, ![100000]⟩
abbrev S100000x172 : Shape := ⟨2, ![100000, 172]⟩
abbrev S100000x100 : Shape := ⟨2, ![100000, 100]⟩
abbrev S528x128 : Shape := ⟨2, ![528, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S100000x1 : Shape := ⟨2, ![100000, 1]⟩
abbrev S100000x128 : Shape := ⟨2, ![100000, 128]⟩
abbrev S100000x528 : Shape := ⟨2, ![100000, 528]⟩
abbrev S1x128 : Shape := ⟨2, ![1, 128]⟩
abbrev S100000x256 : Shape := ⟨2, ![100000, 256]⟩
abbrev S100000x1x128 : Shape := ⟨3, ![100000, 1, 128]⟩
abbrev S100000x2x128 : Shape := ⟨3, ![100000, 2, 128]⟩
abbrev S100000x2 : Shape := ⟨2, ![100000, 2]⟩
abbrev S200000 : Shape := ⟨1, ![200000]⟩
abbrev S200000x1 : Shape := ⟨2, ![200000, 1]⟩

abbrev nBuf : Space → Nat
  | .hbm => 99
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000, .i32⟩
  | .hbm, ⟨2, _⟩ => ⟨S100000, .i32⟩
  | .hbm, ⟨3, _⟩ => ⟨S100000x172, .f32⟩
  | .hbm, ⟨4, _⟩ => ⟨S100000x100, .f32⟩
  | .hbm, ⟨5, _⟩ => ⟨S528x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x128, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x128, .f32⟩
  | .hbm, ⟨31, _⟩ => ⟨S100000x528, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x256, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x1x128, .f32⟩
  | .hbm, ⟨68, _⟩ => ⟨S100000x1x128, .f32⟩
  | .hbm, ⟨69, _⟩ => ⟨S100000x2x128, .f32⟩
  | .hbm, ⟨70, _⟩ => ⟨S200000x128, .f32⟩
  | .hbm, ⟨71, _⟩ => ⟨S100000x1, .i32⟩
  | .hbm, ⟨72, _⟩ => ⟨S100000x1, .i32⟩
  | .hbm, ⟨73, _⟩ => ⟨S100000x2, .i32⟩
  | .hbm, ⟨74, _⟩ => ⟨S200000, .i32⟩
  | .hbm, ⟨75, _⟩ => ⟨S200000, .i32⟩
  | .hbm, ⟨76, _⟩ => ⟨S_, .i32⟩
  | .hbm, ⟨77, _⟩ => ⟨S200000, .i32⟩
  | .hbm, ⟨78, _⟩ => ⟨S200000x1, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S_, .i32⟩
  | .hbm, ⟨85, _⟩ => ⟨S200000, .i32⟩
  | .hbm, ⟨86, _⟩ => ⟨S200000, .i32⟩
  | .hbm, ⟨87, _⟩ => ⟨S_, .i32⟩
  | .hbm, ⟨88, _⟩ => ⟨S200000, .i32⟩
  | .hbm, ⟨89, _⟩ => ⟨S200000, .i1⟩
  | .hbm, ⟨90, _⟩ => ⟨S_, .i32⟩
  | .hbm, ⟨91, _⟩ => ⟨S200000, .i32⟩
  | .hbm, ⟨92, _⟩ => ⟨S200000, .i32⟩
  | .hbm, ⟨93, _⟩ => ⟨S200000, .i32⟩
  | .hbm, ⟨94, _⟩ => ⟨S200000x1, .i32⟩
  | .hbm, ⟨95, _⟩ => ⟨S200000x128, .f32⟩
  | .hbm, ⟨96, _⟩ => ⟨S200000x1, .i1⟩
  | .hbm, ⟨97, _⟩ => ⟨S200000x128, .i1⟩
  | .hbm, ⟨98, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_cst : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_3 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_4 : Ref sig .tc := ⟨.hbm, 80, rfl⟩
abbrev main_v56 : Ref sig .tc := ⟨.hbm, 81, rfl⟩
abbrev main_v57 : Ref sig .tc := ⟨.hbm, 82, rfl⟩
abbrev main_c_5 : Ref sig .tc := ⟨.hbm, 83, rfl⟩
abbrev main_call3_v0 : Ref sig .tc := ⟨.hbm, 84, rfl⟩
abbrev main_call3_v1 : Ref sig .tc := ⟨.hbm, 85, rfl⟩
abbrev main_v58 : Ref sig .tc := ⟨.hbm, 86, rfl⟩
abbrev main_c_6 : Ref sig .tc := ⟨.hbm, 87, rfl⟩
abbrev main_v59 : Ref sig .tc := ⟨.hbm, 88, rfl⟩
abbrev main_v60 : Ref sig .tc := ⟨.hbm, 89, rfl⟩
abbrev main_c_7 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call4_v0 : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x172_S100000x100_S100000x528_d1 : Shape.Concatenates [S100000x128, S100000x128, S100000x172, S100000x100] S100000x528 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S100000x128_S100000x1x128_0_2 : S100000x128.BroadcastsInDim S100000x1x128 (![0, 2] : Fin 2 → Fin S100000x1x128.rank)
  concatenates_S100000x1x128_S100000x1x128_S100000x2x128_d1 : Shape.Concatenates [S100000x1x128, S100000x1x128] S100000x2x128 1
  shapeCasts_S100000x2x128_S200000x128 : S100000x2x128.ShapeCasts S200000x128
  concatenates_S100000x1_S100000x1_S100000x2_d1 : Shape.Concatenates [S100000x1, S100000x1] S100000x2 1
  shapeCasts_S100000x2_S200000 : S100000x2.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  gather_S200000x128_S100000x1_S100000x128_1_0_n_n_0_1_1128_wf : GatherDims.WF S200000x128 S100000x1 S100000x128 [1] [0] [] [0] [] 1 ![1, 128]
  dot_S100000x528_S528x128_S100000x128_1_0_0_1_n_n_wf : DotDims.WF S100000x528 S528x128 S100000x128 [1] [0] [0] [1] [] []
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  scatter_S200000_S200000x1_S200000_n_0_0_1_wf : ScatterDims.WF S200000 S200000x1 S200000 [] [0] [0] 1
  gather_S200000x128_S200000x1_S200000x128_1_0_n_n_0_1_1128_wf : GatherDims.WF S200000x128 S200000x1 S200000x128 [1] [0] [] [0] [] 1 ![1, 128]

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S100000x528_S528x128_S100000x128_1_0_0_1_n_n : DotDims S100000x528 S528x128 S100000x128 where
  lhsContracting := [1]
  rhsContracting := [0]
  lhsNonContracting := [0]
  rhsNonContracting := [1]
  lhsBatch := []
  rhsBatch := []
  wf := dot_S100000x528_S528x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf

class Facts : Prop extends Facts₀ where

variable [Facts]
-- ==== Proof.KernelDots.lean ====
/-
  The kernel's three matrix products read at an index.

  Each of the body's products contracts the columns of a block of 2000 rows with the rows of a weight matrix,
  into a zero accumulator. Over the extended reals entry (r, j) of such a product is the plain sum
  ∑ k, l (r, k) * w (k, j): the contracted position is the left operand's column and the right operand's row,
  and the two free positions are the result's row and column.
-/
import proofs.«179589_j70557722738855_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx

theorem lhs528_0 (i : S2000x128.Idx) (q : dot_S2000x528_S528x128_S2000x128_1_0_0_1_n_n.contr.Idx) :
    (dot_S2000x528_S528x128_S2000x128_1_0_0_1_n_n.lhsIdx i q 0).val = (i 0).val := by
  unfold DotDims.lhsIdx
  rw [dif_neg (show ¬(0 : Fin S2000x528.rank) ∈ dot_S2000x528_S528x128_S2000x128_1_0_0_1_n_n.lhsBatch by decide), dif_pos (show (0 : Fin S2000x528.rank) ∈ dot_S2000x528_S528x128_S2000x128_1_0_0_1_n_n.lhsNonContracting by decide)]
  rfl
theorem lhs528_1 (i : S2000x128.Idx) (q : dot_S2000x528_S528x128_S2000x128_1_0_0_1_n_n.contr.Idx) :
    (dot_S2000x528_S528x128_S2000x128_1_0_0_1_n_n.lhsIdx i q 1).val = (q ⟨0, by decide⟩).val :=
  dot_S2000x528_S528x128_S2000x128_1_0_0_1_n_n.lhsIdx_val_of_single rfl i q
theorem rhs528_0 (i : S2000x128.Idx) (q : dot_S2000x528_S528x128_S2000x128_1_0_0_1_n_n.contr.Idx) :
    (dot_S2000x528_S528x128_S2000x128_1_0_0_1_n_n.rhsIdx i q 0).val = (q ⟨0, by decide⟩).val :=
  dot_S2000x528_S528x128_S2000x128_1_0_0_1_n_n.rhsIdx_val_of_single rfl i q
theorem rhs528_1 (i : S2000x128.Idx) (q : dot_S2000x528_S528x128_S2000x128_1_0_0_1_n_n.contr.Idx) :
    (dot_S2000x528_S528x128_S2000x128_1_0_0_1_n_n.rhsIdx i q 1).val = (i 1).val := by
  unfold DotDims.rhsIdx
  rw [dif_neg (show ¬(1 : Fin S528x128.rank) ∈ dot_S2000x528_S528x128_S2000x128_1_0_0_1_n_n.rhsBatch by decide), dif_pos (show (1 : Fin S528x128.rank) ∈ dot_S2000x528_S528x128_S2000x128_1_0_0_1_n_n.rhsNonContracting by decide)]
  rfl

/-- The block's matrix product into a zero accumulator, at (r, j): the inner product of row r of the left
    operand with column j of the right one, over the 528 contracted positions. -/
theorem matmul528_apply (l : FVec Ideal S2000x528 .bf16) (w : FVec Ideal S528x128 .bf16) (r : Fin 2000) (j : Fin 128) :
    matmul dot_S2000x528_S528x128_S2000x128_1_0_0_1_n_n none l w (constant S2000x128 .f32 0x00000000#32) (ix2 r j)
      = ∑ k : Fin 528, l (ix2 r k) * w (ix2 k j) := by
  simp only [matmul]
  rw [Ideal.matmul_constant_zero_apply, ← Equiv.sum_comp (ValueIdx.contrEquiv1 dot_S2000x528_S528x128_S2000x128_1_0_0_1_n_n 528 rfl rfl).symm]
  refine Finset.sum_congr rfl fun k _ => ?_
  have hk := ValueIdx.contrEquiv1_symm_val dot_S2000x528_S528x128_S2000x128_1_0_0_1_n_n 528 rfl rfl k
  have el : dot_S2000x528_S528x128_S2000x128_1_0_0_1_n_n.lhsIdx (ix2 r j) ((ValueIdx.contrEquiv1 dot_S2000x528_S528x128_S2000x128_1_0_0_1_n_n 528 rfl rfl).symm k) = ix2 r k := funext fun a => Fin.ext (by
    match a with
    | ⟨0, _⟩ => exact lhs528_0 _ _
    | ⟨1, _⟩ => exact (lhs528_1 _ _).trans hk)
  have er : dot_S2000x528_S528x128_S2000x128_1_0_0_1_n_n.rhsIdx (ix2 r j) ((ValueIdx.contrEquiv1 dot_S2000x528_S528x128_S2000x128_1_0_0_1_n_n 528 rfl rfl).symm k) = ix2 k j := funext fun a => Fin.ext (by
    match a with
    | ⟨0, _⟩ => exact (rhs528_0 _ _).trans hk
    | ⟨1, _⟩ => exact rhs528_1 _ _)
  rw [el, er]

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into a zero accumulator, at (r, j): the inner product of row r of the left
    operand with column j of the right one, over the 128 contracted positions. -/
theorem matmul128_apply (l : FVec Ideal S2000x128 .bf16) (w : FVec Ideal S128x128 .bf16) (r : Fin 2000) (j : Fin 128) :
    matmul dot_S2000x128_S128x128_S2000x128_1_0_0_1_n_n none l w (constant S2000x128 .f32 0x00000000#32) (ix2 r j)
      = ∑ k : Fin 128, l (ix2 r k) * w (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

theorem lhs256_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs256_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs256_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs256_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's matrix product into a zero accumulator, at (r, j): the inner product of row r of the left
    operand with column j of the right one, over the 256 contracted positions. -/
theorem matmul256_apply (l : FVec Ideal S2000x256 .bf16) (w : FVec Ideal S256x128 .bf16) (r : Fin 2000) (j : Fin 128) :
    matmul dot_S2000x256_S256x128_S2000x128_1_0_0_1_n_n none l w (constant S2000x128 .f32 0x00000000#32) (ix2 r j)
      = ∑ k : Fin 256, l (ix2 r k) * w (ix2 k j) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j) ((ValueIdx.contrEquiv1 dot_S2000x256_S256x128_S2000x128_1_0_0_1_n_n 256 rfl rfl).symm k) = ix2 r k := funext fun a => Fin.ext (by
    match a with
    | ⟨0, _⟩ => exact lhs256_0 _ _
    | ⟨1, _⟩ => exact (lhs256_1 _ _).trans hk)
  have er : dot_S2000x256_S256x128_S2000x128_1_0_0_1_n_n.rhsIdx (ix2 r j) ((ValueIdx.contrEquiv1 dot_S2000x256_S256x128_S2000x128_1_0_0_1_n_n 256 rfl rfl).symm k) = ix2 k j := funext fun a => Fin.ext (by
    match a with
    | ⟨0, _⟩ => exact (rhs256_0 _ _).trans hk
    | ⟨1, _⟩ => exact rhs256_1 _ _)
  rw [el, er]

end Cert.KernelIdeal.Rows

end
-- ==== Proof.EdgeRows.lean ====
/-
  Row-wise specification of the edge perceptrons, over the extended reals.

  For one edge the computation sees four rows: the source node's embedding s, the destination node's
  embedding d (128 entries each), the edge's features e (172) and its time features t (100).
  * dense x W b j = (∑ k, x k * W k j) + b j is entry j of one linear layer applied to the row x;
  * mlp x W₁ b₁ W₂ b₂ is linear, then the positive part max · 0, then linear;
  * the message is mlp of the four rows laid end to end (join4, 528 entries);
  * the update of an endpoint is mlp of that endpoint's row followed by the message (join2, 256 entries).
  Nothing here needs a law of arithmetic: the two programs compute these very sums, so finiteness of the
  inputs is never used.

  The second half reads a concatenation of row blocks along the column axis at an index (r, k): it is the
  joined rows r of the pieces at k, whatever the number of rows.
-/
import Idealize.ShloMosaic.PureOps.Ideal
import Idealize.ShloMosaic.Lib.ValueIdx
import Idealize.ShloMosaic.Lib.Pipeline.Value

noncomputable section

namespace Cert.EdgeRows

open Idealize.ShloMosaic Idealize.ShloMosaic.ValueIdx

/-- Entry j of a linear layer on the row x: the inner product of x with column j of W, plus the bias. -/
def dense {K : ℕ} (x : Fin K → EReal) (W : Fin K → Fin 128 → EReal) (b : Fin 128 → EReal) (j : Fin 128) : EReal :=
  (∑ k : Fin K, x k * W k j) + b j

/-- A two-layer perceptron on the row x: linear, the positive part, linear. -/
def mlp {K : ℕ} (x : Fin K → EReal) (W₁ : Fin K → Fin 128 → EReal) (b₁ : Fin 128 → EReal)
    (W₂ : Fin 128 → Fin 128 → EReal) (b₂ : Fin 128 → EReal) (j : Fin 128) : EReal :=
  dense (fun k => max (dense x W₁ b₁ k) 0) W₂ b₂ j

/-- Two rows of 128 entries laid end to end. -/
def join2 (a b : Fin 128 → EReal) (k : Fin 256) : EReal :=
  if h : k.val < 128 then a ⟨k.val, h⟩ else b ⟨k.val - 128, by omega⟩

/-- Rows of 128, 128, 172 and 100 entries laid end to end. -/
def join4 (a b : Fin 128 → EReal) (c : Fin 172 → EReal) (d : Fin 100 → EReal) (k : Fin 528) : EReal :=
  if h₁ : k.val < 128 then a ⟨k.val, h₁⟩
  else if h₂ : k.val < 256 then b ⟨k.val - 128, by omega⟩
  else if h₃ : k.val < 428 then c ⟨k.val - 256, by omega⟩
  else d ⟨k.val - 428, by omega⟩

/-- The weights of the two perceptrons, as functions of their coordinates. -/
structure Weights where
  mW₁ : Fin 528 → Fin 128 → EReal
  mb₁ : Fin 128 → EReal
  mW₂ : Fin 128 → Fin 128 → EReal
  mb₂ : Fin 128 → EReal
  uW₁ : Fin 256 → Fin 128 → EReal
  ub₁ : Fin 128 → EReal
  uW₂ : Fin 128 → Fin 128 → EReal
  ub₂ : Fin 128 → EReal

/-- The message of an edge from its four rows. -/
def message (w : Weights) (s d : Fin 128 → EReal) (e : Fin 172 → EReal) (t : Fin 100 → EReal) : Fin 128 → EReal :=
  mlp (join4 s d e t) w.mW₁ w.mb₁ w.mW₂ w.mb₂

/-- The new embedding of the edge's destination: the update perceptron on its row followed by the message. -/
def updDst (w : Weights) (s d : Fin 128 → EReal) (e : Fin 172 → EReal) (t : Fin 100 → EReal) : Fin 128 → EReal :=
  mlp (join2 d (message w s d e t)) w.uW₁ w.ub₁ w.uW₂ w.ub₂

/-- The new embedding of the edge's source: the same perceptron on the source's row followed by the message. -/
def updSrc (w : Weights) (s d : Fin 128 → EReal) (e : Fin 172 → EReal) (t : Fin 100 → EReal) : Fin 128 → EReal :=
  mlp (join2 s (message w s d e t)) w.uW₁ w.ub₁ w.uW₂ w.ub₂

/-! ## Arrays of rows -/

/-- Row r of an array of n rows of c entries. -/
abbrev row {n c : ℕ} (x : (⟨2, ![n, c]⟩ : Shape).Idx → EReal) (r : Fin n) : Fin c → EReal := fun k => x (ix2 r k)

/-- The weights read off their arrays: the matrices by (row, column), a bias by its column. -/
def weightsOf (mW₁ : (⟨2, ![528, 128]⟩ : Shape).Idx → EReal) (mb₁ : Fin 128 → EReal)
    (mW₂ : (⟨2, ![128, 128]⟩ : Shape).Idx → EReal) (mb₂ : Fin 128 → EReal)
    (uW₁ : (⟨2, ![256, 128]⟩ : Shape).Idx → EReal) (ub₁ : Fin 128 → EReal)
    (uW₂ : (⟨2, ![128, 128]⟩ : Shape).Idx → EReal) (ub₂ : Fin 128 → EReal) : Weights where
  mW₁ k j := mW₁ (ix2 k j)
  mb₁ := mb₁
  mW₂ k j := mW₂ (ix2 k j)
  mb₂ := mb₂
  uW₁ k j := uW₁ (ix2 k j)
  ub₁ := ub₁
  uW₂ k j := uW₂ (ix2 k j)
  ub₂ := ub₂

/-- The destinations' new embeddings for n edges, edge by edge. -/
def updDstArr {n : ℕ} (w : Weights) (s d : (⟨2, ![n, 128]⟩ : Shape).Idx → EReal)
    (e : (⟨2, ![n, 172]⟩ : Shape).Idx → EReal) (t : (⟨2, ![n, 100]⟩ : Shape).Idx → EReal) :
    (⟨2, ![n, 128]⟩ : Shape).Idx → EReal :=
  fun i => updDst w (row s (i 0)) (row d (i 0)) (row e (i 0)) (row t (i 0)) (i 1)

/-- The sources' new embeddings for n edges, edge by edge. -/
def updSrcArr {n : ℕ} (w : Weights) (s d : (⟨2, ![n, 128]⟩ : Shape).Idx → EReal)
    (e : (⟨2, ![n, 172]⟩ : Shape).Idx → EReal) (t : (⟨2, ![n, 100]⟩ : Shape).Idx → EReal) :
    (⟨2, ![n, 128]⟩ : Shape).Idx → EReal :=
  fun i => updSrc w (row s (i 0)) (row d (i 0)) (row e (i 0)) (row t (i 0)) (i 1)

theorem updDstArr_ix2 {n : ℕ} (w : Weights) (s d : (⟨2, ![n, 128]⟩ : Shape).Idx → EReal)
    (e : (⟨2, ![n, 172]⟩ : Shape).Idx → EReal) (t : (⟨2, ![n, 100]⟩ : Shape).Idx → EReal) (r : Fin n) (j : Fin 128) :
    updDstArr w s d e t (ix2 r j) = updDst w (row s r) (row d r) (row e r) (row t r) j := rfl

theorem updSrcArr_ix2 {n : ℕ} (w : Weights) (s d : (⟨2, ![n, 128]⟩ : Shape).Idx → EReal)
    (e : (⟨2, ![n, 172]⟩ : Shape).Idx → EReal) (t : (⟨2, ![n, 100]⟩ : Shape).Idx → EReal) (r : Fin n) (j : Fin 128) :
    updSrcArr w s d e t (ix2 r j) = updSrc w (row s r) (row d r) (row e r) (row t r) j := rfl

/-! ## A concatenation of row blocks along the columns, read at an index -/

/-- Two blocks of n rows of 128 entries joined along the columns: entry (r, k) is entry k of the two rows
    r laid end to end. -/
theorem concat2_apply {n : ℕ} (a b : (⟨2, ![n, 128]⟩ : Shape).Idx → EReal)
    (h : Shape.Concatenates [(⟨2, ![n, 128]⟩ : Shape), ⟨2, ![n, 128]⟩] ⟨2, ![n, 256]⟩ 1) (r : Fin n) (k : Fin 256) :
    concatenate (⟨2, ![n, 256]⟩ : Shape) 1 [⟨⟨2, ![n, 128]⟩, a⟩, ⟨⟨2, ![n, 128]⟩, b⟩] h (ix2 r k)
      = join2 (row a r) (row b r) k := by
  unfold join2
  by_cases h₁ : k.val < 128
  · rw [dif_pos h₁]
    exact concatenate_apply_piece (t := ⟨2, ![n, 256]⟩) (1 : Fin 2) [⟨⟨2, ![n, 128]⟩, a⟩, ⟨⟨2, ![n, 128]⟩, b⟩] h (ix2 r k) 0 (by simp) _ a rfl rfl 0 rfl (ix2 r ⟨k.val, h₁⟩)
      (fun b hb => by match b with | ⟨0, _⟩ => rfl | ⟨1, _⟩ => exact absurd rfl hb) (by simp)
  · rw [dif_neg h₁]
    exact concatenate_apply_piece (t := ⟨2, ![n, 256]⟩) (1 : Fin 2) [⟨⟨2, ![n, 128]⟩, a⟩, ⟨⟨2, ![n, 128]⟩, b⟩] h (ix2 r k) 1 (by simp) _ b rfl rfl 128 rfl
      (ix2 r ⟨k.val - 128, by omega⟩)
      (fun b hb => by match b with | ⟨0, _⟩ => rfl | ⟨1, _⟩ => exact absurd rfl hb)
      (by show 128 + (k.val - 128) = k.val; omega)

/-- Blocks of n rows of 128, 128, 172 and 100 entries joined along the columns: entry (r, k) is entry k of
    the four rows r laid end to end. -/
theorem concat4_apply {n : ℕ} (a b : (⟨2, ![n, 128]⟩ : Shape).Idx → EReal) (c : (⟨2, ![n, 172]⟩ : Shape).Idx → EReal)
    (d : (⟨2, ![n, 100]⟩ : Shape).Idx → EReal)
    (h : Shape.Concatenates [(⟨2, ![n, 128]⟩ : Shape), ⟨2, ![n, 128]⟩, ⟨2, ![n, 172]⟩, ⟨2, ![n, 100]⟩] ⟨2, ![n, 528]⟩ 1)
    (r : Fin n) (k : Fin 528) :
    concatenate (⟨2, ![n, 528]⟩ : Shape) 1
        [⟨⟨2, ![n, 128]⟩, a⟩, ⟨⟨2, ![n, 128]⟩, b⟩, ⟨⟨2, ![n, 172]⟩, c⟩, ⟨⟨2, ![n, 100]⟩, d⟩] h (ix2 r k)
      = join4 (row a r) (row b r) (row c r) (row d r) k := by
  unfold join4
  by_cases h₁ : k.val < 128
  · rw [dif_pos h₁]
    exact concatenate_apply_piece (t := ⟨2, ![n, 528]⟩) (1 : Fin 2) [⟨⟨2, ![n, 128]⟩, a⟩, ⟨⟨2, ![n, 128]⟩, b⟩, ⟨⟨2, ![n, 172]⟩, c⟩, ⟨⟨2, ![n, 100]⟩, d⟩] h (ix2 r k) 0 (by simp) _ a rfl rfl 0 rfl (ix2 r ⟨k.val, h₁⟩)
      (fun b hb => by match b with | ⟨0, _⟩ => rfl | ⟨1, _⟩ => exact absurd rfl hb) (by simp)
  · rw [dif_neg h₁]
    by_cases h₂ : k.val < 256
    · rw [dif_pos h₂]
      exact concatenate_apply_piece (t := ⟨2, ![n, 528]⟩) (1 : Fin 2) [⟨⟨2, ![n, 128]⟩, a⟩, ⟨⟨2, ![n, 128]⟩, b⟩, ⟨⟨2, ![n, 172]⟩, c⟩, ⟨⟨2, ![n, 100]⟩, d⟩] h (ix2 r k) 1 (by simp) _ b rfl rfl 128 rfl
        (ix2 r ⟨k.val - 128, by omega⟩)
        (fun b hb => by match b with | ⟨0, _⟩ => rfl | ⟨1, _⟩ => exact absurd rfl hb)
        (by show 128 + (k.val - 128) = k.val; omega)
    · rw [dif_neg h₂]
      by_cases h₃ : k.val < 428
      · rw [dif_pos h₃]
        exact concatenate_apply_piece (t := ⟨2, ![n, 528]⟩) (1 : Fin 2) [⟨⟨2, ![n, 128]⟩, a⟩, ⟨⟨2, ![n, 128]⟩, b⟩, ⟨⟨2, ![n, 172]⟩, c⟩, ⟨⟨2, ![n, 100]⟩, d⟩] h (ix2 r k) 2 (by simp) _ c rfl rfl 256 rfl
          (ix2 r ⟨k.val - 256, by omega⟩)
          (fun b hb => by match b with | ⟨0, _⟩ => rfl | ⟨1, _⟩ => exact absurd rfl hb)
          (by show 256 + (k.val - 256) = k.val; omega)
      · rw [dif_neg h₃]
        exact concatenate_apply_piece (t := ⟨2, ![n, 528]⟩) (1 : Fin 2) [⟨⟨2, ![n, 128]⟩, a⟩, ⟨⟨2, ![n, 128]⟩, b⟩, ⟨⟨2, ![n, 172]⟩, c⟩, ⟨⟨2, ![n, 100]⟩, d⟩] h (ix2 r k) 3 (by simp) _ d rfl rfl 428 rfl
          (ix2 r ⟨k.val - 428, by have := k.isLt; omega⟩)
          (fun b hb => by match b with | ⟨0, _⟩ => rfl | ⟨1, _⟩ => exact absurd rfl hb)
          (by show 428 + (k.val - 428) = k.val; omega)

end Cert.EdgeRows

end
-- ==== Proof.KernelRows.lean ====
/-
  The kernel body's two stored values, read at an index, are the row-wise perceptrons of the loaded rows.

  The body loads, for a block of 2000 edges, the source rows, the destination rows, the edge features and the
  time features, and the weight matrices and bias rows whole. Each of its matrix products is a plain sum at
  an index (the products module), a bias row is spread over the block's rows, the positive part is taken entry
  by entry, a change of float format is the identity over the extended reals, and a concatenation along the
  columns is the rows laid end to end. So entry (r, j) of the value stored to the first output is updDst of
  rows r at j, and of the value stored to the second output updSrc of rows r at j.
-/
import proofs.«179589_j70557722738855_1_alg».proof.Proof.Gen.KernelIdeal.Skeleton
import proofs.«179589_j70557722738855_1_alg».proof.Proof.KernelDots
import proofs.«179589_j70557722738855_1_alg».proof.Proof.EdgeRows

noncomputable section

namespace Cert.KernelIdeal.Rows

open Cert.KernelIdeal Cert.KernelIdeal.Gen Idealize.ShloMosaic Idealize.ShloMosaic.ValueIdx Cert.EdgeRows

/-- A bias row spread over the block's rows: entry (r, j) is the bias's entry j. -/
theorem biasRows_apply (b : Vec Ideal S1x128 .f32) (h : S1x128.Broadcasts S2000x128) (r : Fin 2000) (j : Fin 128) :
    broadcastTo S2000x128 b h (ix2 r j) = b (ix2 0 j) :=
  broadcastTo_apply b h (ix2 r j) (ix2 0 j) (fun a => by
    match a with
    | ⟨0, _⟩ => show (0 : ℕ) = if (1 : ℕ) = 1 then 0 else _; rw [if_pos rfl]
    | ⟨1, _⟩ => show j.val = if (128 : ℕ) = 1 then 0 else _; rw [if_neg (by decide)]; rfl)

/-- The positive part, entry by entry; the change of float format after it is the identity. -/
theorem relu_apply (y : FVec Ideal S2000x128 .f32) (h : FTy.bits .bf16 < FTy.bits .f32) (r : Fin 2000) (j : Fin 128) :
    truncf .bf16 (maximumf y (broadcast S2000x128 (Scalar.ofBits .f32 0x00000000#32))) h (ix2 r j)
      = max (y (ix2 r j)) 0 := by
  show max (y (ix2 r j)) (Ideal.ofBits .f32 0x00000000#32) = _
  rw [Ideal.ofBits_zero_f32]

/-- One linear layer of the body on a block of 528 columns, at (r, j): the inner product of row r with
    column j of the weights, plus entry j of the bias row. -/
theorem layer528_apply (x : FVec Ideal S2000x528 .bf16) (W : Vec Ideal S528x128 .bf16) (hW : S528x128.ShapeCasts S528x128)
    (b : Vec Ideal S1x128 .f32) (hb : S1x128.ShapeCasts S1x128) (hbb : S1x128.Broadcasts S2000x128)
    (r : Fin 2000) (j : Fin 128) :
    addf (matmul dot_S2000x528_S528x128_S2000x128_1_0_0_1_n_n none x (shapeCast S528x128 W hW : FVec Ideal S528x128 .bf16) (constant S2000x128 .f32 0x00000000#32))
        (broadcastTo S2000x128 (shapeCast S1x128 b hb : FVec Ideal S1x128 .f32) hbb) (ix2 r j)
      = dense (fun k => x (ix2 r k)) (fun k j => W (ix2 k j)) (fun j => b (ix2 0 j)) j := by
  rw [shapeCast_self, shapeCast_self]
  show matmul dot_S2000x528_S528x128_S2000x128_1_0_0_1_n_n none x W (constant S2000x128 .f32 0x00000000#32) (ix2 r j)
      + broadcastTo S2000x128 b hbb (ix2 r j) = _
  rw [matmul528_apply, biasRows_apply]
  rfl

/-- One linear layer of the body on a block of 128 columns, at (r, j): the inner product of row r with
    column j of the weights, plus entry j of the bias row. -/
theorem layer128_apply (x : FVec Ideal S2000x128 .bf16) (W : Vec Ideal S128x128 .bf16) (hW : S128x128.ShapeCasts S128x128)
    (b : Vec Ideal S1x128 .f32) (hb : S1x128.ShapeCasts S1x128) (hbb : S1x128.Broadcasts S2000x128)
    (r : Fin 2000) (j : Fin 128) :
    addf (matmul dot_S2000x128_S128x128_S2000x128_1_0_0_1_n_n none x (shapeCast S128x128 W hW : FVec Ideal S128x128 .bf16) (constant S2000x128 .f32 0x00000000#32))
        (broadcastTo S2000x128 (shapeCast S1x128 b hb : FVec Ideal S1x128 .f32) hbb) (ix2 r j)
      = dense (fun k => x (ix2 r k)) (fun k j => W (ix2 k j)) (fun j => b (ix2 0 j)) j := by
  rw [shapeCast_self, shapeCast_self]
  show matmul dot_S2000x128_S128x128_S2000x128_1_0_0_1_n_n none x W (constant S2000x128 .f32 0x00000000#32) (ix2 r j)
      + broadcastTo S2000x128 b hbb (ix2 r j) = _
  rw [matmul128_apply, biasRows_apply]
  rfl

/-- One linear layer of the body on a block of 256 columns, at (r, j): the inner product of row r with
    column j of the weights, plus entry j of the bias row. -/
theorem layer256_apply (x : FVec Ideal S2000x256 .bf16) (W : Vec Ideal S256x128 .bf16) (hW : S256x128.ShapeCasts S256x128)
    (b : Vec Ideal S1x128 .f32) (hb : S1x128.ShapeCasts S1x128) (hbb : S1x128.Broadcasts S2000x128)
    (r : Fin 2000) (j : Fin 128) :
    addf (matmul dot_S2000x256_S256x128_S2000x128_1_0_0_1_n_n none x (shapeCast S256x128 W hW : FVec Ideal S256x128 .bf16) (constant S2000x128 .f32 0x00000000#32))
        (broadcastTo S2000x128 (shapeCast S1x128 b hb : FVec Ideal S1x128 .f32) hbb) (ix2 r j)
      = dense (fun k => x (ix2 r k)) (fun k j => W (ix2 k j)) (fun j => b (ix2 0 j)) j := by
  rw [shapeCast_self, shapeCast_self]
  show matmul dot_S2000x256_S256x128_S2000x128_1_0_0_1_n_n none x W (constant S2000x128 .f32 0x00000000#32) (ix2 r j)
      + broadcastTo S2000x128 b hbb (ix2 r j) = _
  rw [matmul256_apply, biasRows_apply]
  rfl

/-- A two-layer perceptron of the body on a block of 528 columns, at (r, j): the row-wise perceptron of row r. -/
theorem mlp528_apply (x : FVec Ideal S2000x528 .bf16)
    (W₁ : Vec Ideal S528x128 .bf16) (h₁ : S528x128.ShapeCasts S528x128)
    (b₁ : Vec Ideal S1x128 .f32) (h₂ : S1x128.ShapeCasts S1x128) (h₃ : S1x128.Broadcasts S2000x128)
    (h₄ : FTy.bits .bf16 < FTy.bits .f32)
    (W₂ : Vec Ideal S128x128 .bf16) (h₅ : S128x128.ShapeCasts S128x128)
    (b₂ : Vec Ideal S1x128 .f32) (h₆ : S1x128.ShapeCasts S1x128) (h₇ : S1x128.Broadcasts S2000x128)
    (r : Fin 2000) (j : Fin 128) :
    addf (matmul dot_S2000x128_S128x128_S2000x128_1_0_0_1_n_n none
          (truncf .bf16 (maximumf (addf (matmul dot_S2000x528_S528x128_S2000x128_1_0_0_1_n_n none x (shapeCast S528x128 W₁ h₁ : FVec Ideal S528x128 .bf16) (constant S2000x128 .f32 0x00000000#32))
              (broadcastTo S2000x128 (shapeCast S1x128 b₁ h₂ : FVec Ideal S1x128 .f32) h₃)) (broadcast S2000x128 (Scalar.ofBits .f32 0x00000000#32))) h₄)
          (shapeCast S128x128 W₂ h₅ : FVec Ideal S128x128 .bf16) (constant S2000x128 .f32 0x00000000#32))
        (broadcastTo S2000x128 (shapeCast S1x128 b₂ h₆ : FVec Ideal S1x128 .f32) h₇) (ix2 r j)
      = mlp (fun k => x (ix2 r k)) (fun k j => W₁ (ix2 k j)) (fun j => b₁ (ix2 0 j))
          (fun k j => W₂ (ix2 k j)) (fun j => b₂ (ix2 0 j)) j := by
  refine (layer128_apply _ W₂ h₅ b₂ h₆ h₇ r j).trans ?_
  unfold mlp
  refine congrArg (fun y => dense y _ _ j) (funext fun k => ?_)
  refine (relu_apply _ h₄ r k).trans ?_
  exact congrArg (fun y => max y 0) (layer528_apply x W₁ h₁ b₁ h₂ h₃ r k)

/-- A two-layer perceptron of the body on a block of 256 columns, at (r, j): the row-wise perceptron of row r. -/
theorem mlp256_apply (x : FVec Ideal S2000x256 .bf16)
    (W₁ : Vec Ideal S256x128 .bf16) (h₁ : S256x128.ShapeCasts S256x128)
    (b₁ : Vec Ideal S1x128 .f32) (h₂ : S1x128.ShapeCasts S1x128) (h₃ : S1x128.Broadcasts S2000x128)
    (h₄ : FTy.bits .bf16 < FTy.bits .f32)
    (W₂ : Vec Ideal S128x128 .bf16) (h₅ : S128x128.ShapeCasts S128x128)
    (b₂ : Vec Ideal S1x128 .f32) (h₆ : S1x128.ShapeCasts S1x128) (h₇ : S1x128.Broadcasts S2000x128)
    (r : Fin 2000) (j : Fin 128) :
    addf (matmul dot_S2000x128_S128x128_S2000x128_1_0_0_1_n_n none
          (truncf .bf16 (maximumf (addf (matmul dot_S2000x256_S256x128_S2000x128_1_0_0_1_n_n none x (shapeCast S256x128 W₁ h₁ : FVec Ideal S256x128 .bf16) (constant S2000x128 .f32 0x00000000#32))
              (broadcastTo S2000x128 (shapeCast S1x128 b₁ h₂ : FVec Ideal S1x128 .f32) h₃)) (broadcast S2000x128 (Scalar.ofBits .f32 0x00000000#32))) h₄)
          (shapeCast S128x128 W₂ h₅ : FVec Ideal S128x128 .bf16) (constant S2000x128 .f32 0x00000000#32))
        (broadcastTo S2000x128 (shapeCast S1x128 b₂ h₆ : FVec Ideal S1x128 .f32) h₇) (ix2 r j)
      = mlp (fun k => x (ix2 r k)) (fun k j => W₁ (ix2 k j)) (fun j => b₁ (ix2 0 j))
          (fun k j => W₂ (ix2 k j)) (fun j => b₂ (ix2 0 j)) j := by
  refine (layer128_apply _ W₂ h₅ b₂ h₆ h₇ r j).trans ?_
  unfold mlp
  refine congrArg (fun y => dense y _ _ j) (funext fun k => ?_)
  refine (relu_apply _ h₄ r k).trans ?_
  exact congrArg (fun y => max y 0) (layer256_apply x W₁ h₁ b₁ h₂ h₃ r k)

/-- The weights as the body loads them: the matrices by (row, column), a bias row by its column. -/
def blkWeights (x4 : Vec Ideal S528x128 .bf16) (x5 : Vec Ideal S1x128 .f32) (x6 : Vec Ideal S128x128 .bf16)
    (x7 : Vec Ideal S1x128 .f32) (x8 : Vec Ideal S256x128 .bf16) (x9 : Vec Ideal S1x128 .f32)
    (x10 : Vec Ideal S128x128 .bf16) (x11 : Vec Ideal S1x128 .f32) : Weights :=
  weightsOf x4 (fun j => x5 (ix2 0 j)) x6 (fun j => x7 (ix2 0 j)) x8 (fun j => x9 (ix2 0 j)) x10 (fun j => x11 (ix2 0 j))

/-- The source rows in the matrix unit's format are the source rows. -/
theorem src_apply (x0 : Vec Ideal S2000x128 .f32) (r : Fin 2000) (k : Fin 128) : k0_pay3 x0 (ix2 r k) = x0 (ix2 r k) := by
  unfold k0_pay3
  show shapeCast S2000x128 x0 _ (ix2 r k) = _
  rw [shapeCast_self]

/-- The destination rows in the matrix unit's format are the destination rows. -/
theorem dst_apply (x1 : Vec Ideal S2000x128 .f32) (r : Fin 2000) (k : Fin 128) : k0_pay4 x1 (ix2 r k) = x1 (ix2 r k) := by
  unfold k0_pay4
  show shapeCast S2000x128 x1 _ (ix2 r k) = _
  rw [shapeCast_self]

/-- The body's message at (r, j) is the message of rows r. -/
theorem message_apply (x0 x1 : Vec Ideal S2000x128 .f32) (x2 : Vec Ideal S2000x172 .f32) (x3 : Vec Ideal S2000x100 .f32)
    (x4 : Vec Ideal S528x128 .bf16) (x5 : Vec Ideal S1x128 .f32) (x6 : Vec Ideal S128x128 .bf16) (x7 : Vec Ideal S1x128 .f32)
    (x8 : Vec Ideal S256x128 .bf16) (x9 : Vec Ideal S1x128 .f32) (x10 : Vec Ideal S128x128 .bf16) (x11 : Vec Ideal S1x128 .f32)
    (r : Fin 2000) (j : Fin 128) :
    k0_pay5 x0 x1 x2 x3 x4 x5 x6 x7 (ix2 r j)
      = message (blkWeights x4 x5 x6 x7 x8 x9 x10 x11) (row x0 r) (row x1 r) (row x2 r) (row x3 r) j := by
  unfold k0_pay5
  refine (mlp528_apply _ x4 _ x5 _ _ _ x6 _ x7 _ _ r j).trans ?_
  unfold message
  refine congrArg (fun y => mlp y _ _ _ _ j) (funext fun k => ?_)
  refine (concat4_apply _ _ _ _ _ r k).trans ?_
  exact congrArg₂ (fun (a b : Fin 128 → EReal) => join4 a b (row x2 r) (row x3 r) k)
    (funext fun q => src_apply x0 r q) (funext fun q => dst_apply x1 r q)

/-- The value stored to the first output is, entry by entry, the destinations' new embeddings of the block. -/
theorem pay_dst (x0 x1 : Vec Ideal S2000x128 .f32) (x2 : Vec Ideal S2000x172 .f32) (x3 : Vec Ideal S2000x100 .f32)
    (x4 : Vec Ideal S528x128 .bf16) (x5 : Vec Ideal S1x128 .f32) (x6 : Vec Ideal S128x128 .bf16) (x7 : Vec Ideal S1x128 .f32)
    (x8 : Vec Ideal S256x128 .bf16) (x9 : Vec Ideal S1x128 .f32) (x10 : Vec Ideal S128x128 .bf16) (x11 : Vec Ideal S1x128 .f32) :
    k0_pay1 (F := Ideal) (k0_pay6 x0 x1 x2 x3 x4 x5 x6 x7 x8) (k0_pay7 x9) x10 x11
      = updDstArr (blkWeights x4 x5 x6 x7 x8 x9 x10 x11) x0 x1 x2 x3 := by
  funext i
  obtain ⟨r, j, rfl⟩ : ∃ (r : Fin 2000) (j : Fin 128), i = ix2 r j := ⟨i 0, i 1, eq_ix2 i⟩
  rw [updDstArr_ix2]
  unfold k0_pay1 k0_pay6 k0_pay7
  refine (mlp256_apply _ x8 _ x9 _ _ _ x10 _ x11 _ _ r j).trans ?_
  unfold updDst
  refine congrArg (fun y => mlp y _ _ _ _ j) (funext fun k => ?_)
  refine (concat2_apply _ _ _ r k).trans ?_
  exact congrArg₂ (fun (a b : Fin 128 → EReal) => join2 a b k)
    (funext fun q => dst_apply x1 r q) (funext fun q => message_apply x0 x1 x2 x3 x4 x5 x6 x7 x8 x9 x10 x11 r q)

/-- The value stored to the second output is, entry by entry, the sources' new embeddings of the block. -/
theorem pay_src (x0 x1 : Vec Ideal S2000x128 .f32) (x2 : Vec Ideal S2000x172 .f32) (x3 : Vec Ideal S2000x100 .f32)
    (x4 : Vec Ideal S528x128 .bf16) (x5 : Vec Ideal S1x128 .f32) (x6 : Vec Ideal S128x128 .bf16) (x7 : Vec Ideal S1x128 .f32)
    (x8 : Vec Ideal S256x128 .bf16) (x9 : Vec Ideal S1x128 .f32) (x10 : Vec Ideal S128x128 .bf16) (x11 : Vec Ideal S1x128 .f32) :
    k0_pay2 (F := Ideal) (k0_pay3 x0) (k0_pay5 x0 x1 x2 x3 x4 x5 x6 x7) x8 x9 x10 x11
      = updSrcArr (blkWeights x4 x5 x6 x7 x8 x9 x10 x11) x0 x1 x2 x3 := by
  funext i
  obtain ⟨r, j, rfl⟩ : ∃ (r : Fin 2000) (j : Fin 128), i = ix2 r j := ⟨i 0, i 1, eq_ix2 i⟩
  rw [updSrcArr_ix2]
  unfold k0_pay2
  refine (mlp256_apply _ x8 _ x9 _ _ _ x10 _ x11 _ _ r j).trans ?_
  unfold updSrc
  refine congrArg (fun y => mlp y _ _ _ _ j) (funext fun k => ?_)
  refine (concat2_apply _ _ _ r k).trans ?_
  exact congrArg₂ (fun (a b : Fin 128 → EReal) => join2 a b k)
    (funext fun q => src_apply x0 r q) (funext fun q => message_apply x0 x1 x2 x3 x4 x5 x6 x7 x8 x9 x10 x11 r q)

end Cert.KernelIdeal.Rows

end
-- ==== Proof.Blocks.lean ====
/-
  From blocks to arrays: what the two output arrays hold after the region.

  The grid has 50 points; point t stages rows 2000 t to 2000 t + 1999 of the gathered source rows, the
  gathered destination rows, the edge features and the time features, and the eight weight and bias arrays
  whole. The body's two stored values are the row-wise perceptrons of the staged rows (the rows module), so
  what point t writes back is block t of ONE function of the arrays the region finds: the destinations' new
  embeddings of all 100000 edges for the first output, the sources' for the second. The blocks of the 50
  points tile the outputs (row i lies in the block of point i / 2000), so after the region each output array
  is that function.
-/
import proofs.«179589_j70557722738855_1_alg».proof.Proof.Gen.KernelIdeal.Frame
import proofs.«179589_j70557722738855_1_alg».proof.Proof.KernelRows
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Rows Cert.EdgeRows
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The windows that move with the grid point: block index (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The resident windows: block index (0, 0) at every point. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Edge number of row r of point t's block. -/
def edge (t : Fin cfg0.N) (r : Fin 2000) : Fin 100000 :=
  ⟨t.val * 2000 + r.val, by have h := t.isLt; have e : cfg0.N = 50 := N_0; have := r.isLt; omega⟩

theorem edge_val (t : Fin cfg0.N) (r : Fin 2000) : (edge t r).val = t.val * 2000 + r.val := rfl

/-- Block t of window 0 holds rows 2000 t to 2000 t + 1999 of its array. -/
theorem rowsBlk0 (c : Dev nD) (t : Fin cfg0.N) (r : Fin 2000) (k : Fin 128) :
    iblk m c 0 t (ix2 r k) = V m c main_v6 (ix2 (edge t r) k) := by
  show V m c main_v6 (((cfg0.win 0).blk t).view.emb (ix2 r k)) = _
  refine congrArg (V m c main_v6) (funext fun a => Fin.ext ?_)
  obtain ⟨a0, b0, a1, b1, a2, b2, a3, b3, a12, b12, a13, b13⟩ := idx_rows t
  match a with
  | ⟨0, _⟩ => show win0_0.index t (0 : Fin 2) * 2000 + 1 * r.val = t.val * 2000 + r.val; omega
  | ⟨1, _⟩ => show win0_0.index t (1 : Fin 2) * 128 + 1 * k.val = k.val; omega

/-- Block t of window 1 holds rows 2000 t to 2000 t + 1999 of its array. -/
theorem rowsBlk1 (c : Dev nD) (t : Fin cfg0.N) (r : Fin 2000) (k : Fin 128) :
    iblk m c 1 t (ix2 r k) = V m c main_v13 (ix2 (edge t r) k) := by
  show V m c main_v13 (((cfg0.win 1).blk t).view.emb (ix2 r k)) = _
  refine congrArg (V m c main_v13) (funext fun a => Fin.ext ?_)
  obtain ⟨a0, b0, a1, b1, a2, b2, a3, b3, a12, b12, a13, b13⟩ := idx_rows t
  match a with
  | ⟨0, _⟩ => show win0_1.index t (0 : Fin 2) * 2000 + 1 * r.val = t.val * 2000 + r.val; omega
  | ⟨1, _⟩ => show win0_1.index t (1 : Fin 2) * 128 + 1 * k.val = k.val; omega

/-- Block t of window 2 holds rows 2000 t to 2000 t + 1999 of its array. -/
theorem rowsBlk2 (c : Dev nD) (t : Fin cfg0.N) (r : Fin 2000) (k : Fin 172) :
    iblk m c 2 t (ix2 r k) = V m c main_arg3 (ix2 (edge t r) k) := by
  show V m c main_arg3 (((cfg0.win 2).blk t).view.emb (ix2 r k)) = _
  refine congrArg (V m c main_arg3) (funext fun a => Fin.ext ?_)
  obtain ⟨a0, b0, a1, b1, a2, b2, a3, b3, a12, b12, a13, b13⟩ := idx_rows t
  match a with
  | ⟨0, _⟩ => show win0_2.index t (0 : Fin 2) * 2000 + 1 * r.val = t.val * 2000 + r.val; omega
  | ⟨1, _⟩ => show win0_2.index t (1 : Fin 2) * 172 + 1 * k.val = k.val; omega

/-- Block t of window 3 holds rows 2000 t to 2000 t + 1999 of its array. -/
theorem rowsBlk3 (c : Dev nD) (t : Fin cfg0.N) (r : Fin 2000) (k : Fin 100) :
    iblk m c 3 t (ix2 r k) = V m c main_arg4 (ix2 (edge t r) k) := by
  show V m c main_arg4 (((cfg0.win 3).blk t).view.emb (ix2 r k)) = _
  refine congrArg (V m c main_arg4) (funext fun a => Fin.ext ?_)
  obtain ⟨a0, b0, a1, b1, a2, b2, a3, b3, a12, b12, a13, b13⟩ := idx_rows t
  match a with
  | ⟨0, _⟩ => show win0_3.index t (0 : Fin 2) * 2000 + 1 * r.val = t.val * 2000 + r.val; omega
  | ⟨1, _⟩ => show win0_3.index t (1 : Fin 2) * 100 + 1 * k.val = k.val; omega

/-- Window 4's block is its whole array at every point. -/
theorem wholeBlk4 (c : Dev nD) (t : Fin cfg0.N) : iblk m c 4 t = V m c main_v14 := by
  funext y
  show V m c main_v14 (((cfg0.win 4).blk t).view.emb y) = V m c main_v14 y
  refine congrArg (V m c main_v14) (funext fun a => Fin.ext ?_)
  obtain ⟨a4, b4, a5, b5, a6, b6, a7, b7, a8, b8, a9, b9, a10, b10, a11, b11⟩ := idx_whole t
  match a with
  | ⟨0, _⟩ => show win0_4.index t (0 : Fin 2) * 528 + 1 * (y 0).val = (y 0).val; omega
  | ⟨1, _⟩ => show win0_4.index t (1 : Fin 2) * 128 + 1 * (y 1).val = (y 1).val; omega

/-- Window 5's block is its whole array at every point. -/
theorem wholeBlk5 (c : Dev nD) (t : Fin cfg0.N) : iblk m c 5 t = V m c main_v18 := by
  funext y
  show V m c main_v18 (((cfg0.win 5).blk t).view.emb y) = V m c main_v18 y
  refine congrArg (V m c main_v18) (funext fun a => Fin.ext ?_)
  obtain ⟨a4, b4, a5, b5, a6, b6, a7, b7, a8, b8, a9, b9, a10, b10, a11, b11⟩ := idx_whole t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array at every point. -/
theorem wholeBlk6 (c : Dev nD) (t : Fin cfg0.N) : iblk m c 6 t = V m c main_v15 := by
  funext y
  show V m c main_v15 (((cfg0.win 6).blk t).view.emb y) = V m c main_v15 y
  refine congrArg (V m c main_v15) (funext fun a => Fin.ext ?_)
  obtain ⟨a4, b4, a5, b5, a6, b6, a7, b7, a8, b8, a9, b9, a10, b10, a11, b11⟩ := idx_whole t
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7's block is its whole array at every point. -/
theorem wholeBlk7 (c : Dev nD) (t : Fin cfg0.N) : iblk m c 7 t = V m c main_v19 := by
  funext y
  show V m c main_v19 (((cfg0.win 7).blk t).view.emb y) = V m c main_v19 y
  refine congrArg (V m c main_v19) (funext fun a => Fin.ext ?_)
  obtain ⟨a4, b4, a5, b5, a6, b6, a7, b7, a8, b8, a9, b9, a10, b10, a11, b11⟩ := idx_whole t
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block is its whole array at every point. -/
theorem wholeBlk8 (c : Dev nD) (t : Fin cfg0.N) : iblk m c 8 t = V m c main_v16 := by
  funext y
  show V m c main_v16 (((cfg0.win 8).blk t).view.emb y) = V m c main_v16 y
  refine congrArg (V m c main_v16) (funext fun a => Fin.ext ?_)
  obtain ⟨a4, b4, a5, b5, a6, b6, a7, b7, a8, b8, a9, b9, a10, b10, a11, b11⟩ := idx_whole t
  match a with
  | ⟨0, _⟩ => show win0_8.index t (0 : Fin 2) * 256 + 1 * (y 0).val = (y 0).val; omega
  | ⟨1, _⟩ => show win0_8.index t (1 : Fin 2) * 128 + 1 * (y 1).val = (y 1).val; omega

/-- Window 9's block is its whole array at every point. -/
theorem wholeBlk9 (c : Dev nD) (t : Fin cfg0.N) : iblk m c 9 t = V m c main_v20 := by
  funext y
  show V m c main_v20 (((cfg0.win 9).blk t).view.emb y) = V m c main_v20 y
  refine congrArg (V m c main_v20) (funext fun a => Fin.ext ?_)
  obtain ⟨a4, b4, a5, b5, a6, b6, a7, b7, a8, b8, a9, b9, a10, b10, a11, b11⟩ := idx_whole t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block is its whole array at every point. -/
theorem wholeBlk10 (c : Dev nD) (t : Fin cfg0.N) : iblk m c 10 t = V m c main_v17 := by
  funext y
  show V m c main_v17 (((cfg0.win 10).blk t).view.emb y) = V m c main_v17 y
  refine congrArg (V m c main_v17) (funext fun a => Fin.ext ?_)
  obtain ⟨a4, b4, a5, b5, a6, b6, a7, b7, a8, b8, a9, b9, a10, b10, a11, b11⟩ := idx_whole t
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Window 11's block is its whole array at every point. -/
theorem wholeBlk11 (c : Dev nD) (t : Fin cfg0.N) : iblk m c 11 t = V m c main_v21 := by
  funext y
  show V m c main_v21 (((cfg0.win 11).blk t).view.emb y) = V m c main_v21 y
  refine congrArg (V m c main_v21) (funext fun a => Fin.ext ?_)
  obtain ⟨a4, b4, a5, b5, a6, b6, a7, b7, a8, b8, a9, b9, a10, b10, a11, b11⟩ := idx_whole t
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- The weights as the region finds them. -/
def entryWeights (c : Dev nD) : Weights :=
  blkWeights (V m c main_v14) (V m c main_v18) (V m c main_v15) (V m c main_v19) (V m c main_v16) (V m c main_v20)
    (V m c main_v17) (V m c main_v21)

/-- The destinations' new embeddings of all edges, from the arrays the region finds. -/
def dstNew (c : Dev nD) : Vec Ideal S100000x128 .f32 :=
  updDstArr (entryWeights m c) (V m c main_v6) (V m c main_v13) (V m c main_arg3) (V m c main_arg4)

/-- The sources' new embeddings of all edges, from the arrays the region finds. -/
def srcNew (c : Dev nD) : Vec Ideal S100000x128 .f32 :=
  updSrcArr (entryWeights m c) (V m c main_v6) (V m c main_v13) (V m c main_arg3) (V m c main_arg4)

/-- What point t writes back through output window 12 is block t of dstNew. -/
theorem flushed12_eq (c : Dev nD) (t : Fin cfg0.N) :
    (dats m 0 c).flushed 12 t = ((cfg0.win 12).blk t).view.read (Elt Ideal) (dstNew m c) := by
  show (cfg0.win 12).cut (grid0.coords t) ((dats m 0 c).after 12 t) = _
  rw [after0_12]
  unfold out0_12
  rw [View.canon_unit_zero hz]
  simp only [View.ld_unit_zero (S := S2000x128) hz, View.ld_unit_zero (S := S2000x172) hz, View.ld_unit_zero (S := S2000x100) hz,
    View.ld_unit_zero (S := S528x128) hz, View.ld_unit_zero (S := S1x128) hz, View.ld_unit_zero (S := S128x128) hz,
    View.ld_unit_zero (S := S256x128) hz]
  have hp := pay_dst (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)
  funext y
  obtain ⟨r, q, rfl⟩ : ∃ (r : Fin 2000) (q : Fin 128), y = ix2 r q := ⟨y 0, y 1, eq_ix2 y⟩
  refine (congrFun hp (ix2 r q)).trans ?_
  have he : ((cfg0.win 12).blk t).view.emb (ix2 r q) = ix2 (edge t r) q := by
    funext a; apply Fin.ext
    obtain ⟨a0, b0, a1, b1, a2, b2, a3, b3, a12, b12, a13, b13⟩ := idx_rows t
    match a with
    | ⟨0, _⟩ => show win0_12.index t (0 : Fin 2) * 2000 + 1 * r.val = t.val * 2000 + r.val; omega
    | ⟨1, _⟩ => show win0_12.index t (1 : Fin 2) * 128 + 1 * q.val = q.val; omega
  show _ = dstNew m c (((cfg0.win 12).blk t).view.emb (ix2 r q))
  rw [he]
  unfold dstNew
  rw [updDstArr_ix2, updDstArr_ix2]
  rw [show blkWeights (iblk m c 4 t) (iblk m c 5 t) (iblk m c 6 t) (iblk m c 7 t) (iblk m c 8 t) (iblk m c 9 t) (iblk m c 10 t)
      (iblk m c 11 t) = entryWeights m c from by
    rw [wholeBlk4, wholeBlk5, wholeBlk6, wholeBlk7, wholeBlk8, wholeBlk9, wholeBlk10, wholeBlk11]; rfl]
  rw [show row (iblk m c 0 t) r = row (V m c main_v6) (edge t r) from funext fun k => rowsBlk0 m c t r k,
    show row (iblk m c 1 t) r = row (V m c main_v13) (edge t r) from funext fun k => rowsBlk1 m c t r k,
    show row (iblk m c 2 t) r = row (V m c main_arg3) (edge t r) from funext fun k => rowsBlk2 m c t r k,
    show row (iblk m c 3 t) r = row (V m c main_arg4) (edge t r) from funext fun k => rowsBlk3 m c t r k]

/-- An index of the array lies in point t's block of window 12 iff each coordinate lies in the block's range. -/
theorem mem_blk12 (t : Fin cfg0.N) (i : S100000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v22_0).slice (win0_12.rect t)).set ↔ _
  rw [View.set_slice_whole, Rect.mem_set_unit]
  exact Iff.rfl

/-- Every row of the output lies in the block of the point row / 2000. -/
theorem cover12 (i : S100000x128.Idx) :
    ∃ t : Fin cfg0.N, (cfg0.win 12).flush t = true ∧ i ∈ ((cfg0.win 12).blk t).view.set := by
  have hi0 : (i 0).val < 100000 := (i 0).isLt
  have hi1 : (i 1).val < 128 := (i 1).isLt
  have hN : cfg0.N = 50 := N_0
  have ht : (i 0).val / 2000 < cfg0.N := by omega
  obtain ⟨a0, b0, a1, b1, a2, b2, a3, b3, a12, b12, a13, b13⟩ := idx_rows ⟨(i 0).val / 2000, ht⟩
  refine ⟨⟨(i 0).val / 2000, ht⟩, flush0_12 _, ?_⟩
  rw [mem_blk12]
  intro a
  match a with
  | ⟨0, _⟩ =>
    show win0_12.index ⟨(i 0).val / 2000, ht⟩ (0 : Fin 2) * 2000 ≤ (i 0).val
      ∧ (i 0).val < win0_12.index ⟨(i 0).val / 2000, ht⟩ (0 : Fin 2) * 2000 + 2000
    rw [a12]; show (i 0).val / 2000 * 2000 ≤ (i 0).val ∧ (i 0).val < (i 0).val / 2000 * 2000 + 2000; omega
  | ⟨1, _⟩ =>
    show win0_12.index ⟨(i 0).val / 2000, ht⟩ (1 : Fin 2) * 128 ≤ (i 1).val
      ∧ (i 1).val < win0_12.index ⟨(i 0).val / 2000, ht⟩ (1 : Fin 2) * 128 + 128
    rw [b12]; omega

/-- After the region the array of output window 12 holds dstNew. -/
theorem final12 (c : Dev nD) : (dats m 0 c).arrAt 12 cfg0.N = dstNew m c :=
  (dats m 0 c).arrAt_eq_of_cover 12 (dstNew m c) (fun t _ => flushed12_eq m c t) cover12

/-- What point t writes back through output window 13 is block t of srcNew. -/
theorem flushed13_eq (c : Dev nD) (t : Fin cfg0.N) :
    (dats m 0 c).flushed 13 t = ((cfg0.win 13).blk t).view.read (Elt Ideal) (srcNew m c) := by
  show (cfg0.win 13).cut (grid0.coords t) ((dats m 0 c).after 13 t) = _
  rw [after0_13]
  unfold out0_13
  rw [View.canon_unit_zero hz]
  simp only [View.ld_unit_zero (S := S2000x128) hz, View.ld_unit_zero (S := S2000x172) hz, View.ld_unit_zero (S := S2000x100) hz,
    View.ld_unit_zero (S := S528x128) hz, View.ld_unit_zero (S := S1x128) hz, View.ld_unit_zero (S := S128x128) hz,
    View.ld_unit_zero (S := S256x128) hz]
  have hp := pay_src (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)
  funext y
  obtain ⟨r, q, rfl⟩ : ∃ (r : Fin 2000) (q : Fin 128), y = ix2 r q := ⟨y 0, y 1, eq_ix2 y⟩
  refine (congrFun hp (ix2 r q)).trans ?_
  have he : ((cfg0.win 13).blk t).view.emb (ix2 r q) = ix2 (edge t r) q := by
    funext a; apply Fin.ext
    obtain ⟨a0, b0, a1, b1, a2, b2, a3, b3, a12, b12, a13, b13⟩ := idx_rows t
    match a with
    | ⟨0, _⟩ => show win0_13.index t (0 : Fin 2) * 2000 + 1 * r.val = t.val * 2000 + r.val; omega
    | ⟨1, _⟩ => show win0_13.index t (1 : Fin 2) * 128 + 1 * q.val = q.val; omega
  show _ = srcNew m c (((cfg0.win 13).blk t).view.emb (ix2 r q))
  rw [he]
  unfold srcNew
  rw [updSrcArr_ix2, updSrcArr_ix2]
  rw [show blkWeights (iblk m c 4 t) (iblk m c 5 t) (iblk m c 6 t) (iblk m c 7 t) (iblk m c 8 t) (iblk m c 9 t) (iblk m c 10 t)
      (iblk m c 11 t) = entryWeights m c from by
    rw [wholeBlk4, wholeBlk5, wholeBlk6, wholeBlk7, wholeBlk8, wholeBlk9, wholeBlk10, wholeBlk11]; rfl]
  rw [show row (iblk m c 0 t) r = row (V m c main_v6) (edge t r) from funext fun k => rowsBlk0 m c t r k,
    show row (iblk m c 1 t) r = row (V m c main_v13) (edge t r) from funext fun k => rowsBlk1 m c t r k,
    show row (iblk m c 2 t) r = row (V m c main_arg3) (edge t r) from funext fun k => rowsBlk2 m c t r k,
    show row (iblk m c 3 t) r = row (V m c main_arg4) (edge t r) from funext fun k => rowsBlk3 m c t r k]

/-- An index of the array lies in point t's block of window 13 iff each coordinate lies in the block's range. -/
theorem mem_blk13 (t : Fin cfg0.N) (i : S100000x128.Idx) :
    i ∈ ((cfg0.win 13).blk t).view.set ↔ ∀ a : Fin 2, win0_13.index t a * S2000x128.size a ≤ (i a).val
      ∧ (i a).val < win0_13.index t a * S2000x128.size a + S2000x128.size a := by
  show i ∈ ((View.whole main_v22_1).slice (win0_13.rect t)).set ↔ _
  rw [View.set_slice_whole, Rect.mem_set_unit]
  exact Iff.rfl

/-- Every row of the output lies in the block of the point row / 2000. -/
theorem cover13 (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  have hN : cfg0.N = 50 := N_0
  have ht : (i 0).val / 2000 < cfg0.N := by omega
  obtain ⟨a0, b0, a1, b1, a2, b2, a3, b3, a12, b12, a13, b13⟩ := idx_rows ⟨(i 0).val / 2000, ht⟩
  refine ⟨⟨(i 0).val / 2000, ht⟩, flush0_13 _, ?_⟩
  rw [mem_blk13]
  intro a
  match a with
  | ⟨0, _⟩ =>
    show win0_13.index ⟨(i 0).val / 2000, ht⟩ (0 : Fin 2) * 2000 ≤ (i 0).val
      ∧ (i 0).val < win0_13.index ⟨(i 0).val / 2000, ht⟩ (0 : Fin 2) * 2000 + 2000
    rw [a13]; show (i 0).val / 2000 * 2000 ≤ (i 0).val ∧ (i 0).val < (i 0).val / 2000 * 2000 + 2000; omega
  | ⟨1, _⟩ =>
    show win0_13.index ⟨(i 0).val / 2000, ht⟩ (1 : Fin 2) * 128 ≤ (i 1).val
      ∧ (i 1).val < win0_13.index ⟨(i 0).val / 2000, ht⟩ (1 : Fin 2) * 128 + 128
    rw [b13]; omega

/-- After the region the array of output window 13 holds srcNew. -/
theorem final13 (c : Dev nD) : (dats m 0 c).arrAt 13 cfg0.N = srcNew m c :=
  (dats m 0 c).arrAt_eq_of_cover 13 (srcNew m c) (fun t _ => flushed13_eq m c t) cover13

end Cert.KernelIdeal.Blocks

end
-- ==== Proof.KernelTail.lean ====
/-
  The lines after the region: last write wins.

  The two output arrays of the region are interleaved (edge e writes its destination's row, then its source's
  row), a scatter with maximum finds for every node the position of the last write to it, and a gather takes
  that row for every node some write goes to; the other nodes keep their old embedding. The whole stretch is
  one function lastWins of the two arrays, the old embeddings and the two index arrays; nothing below opens it.
-/
import proofs.«179589_j70557722738855_1_alg».proof.Proof.Gen.KernelIdeal.Launch
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- An array of per-edge rows with a middle axis of extent one, ready to be interleaved. -/
def mid (x : FVec F S100000x128 .f32) : FVec F S100000x1x128 .f32 :=
  broadcastInDim S100000x1x128 ![0, 2] bcast_S100000x128_S100000x1x128_0_2 x

/-- Two arrays of per-edge rows interleaved: row 2e is the first array's row e, row 2e + 1 the second's. -/
def interleaved (a b : FVec F S100000x1x128 .f32) : FVec F S200000x128 .f32 :=
  shapeCast S200000x128
    (concatenate S100000x2x128 1 [⟨S100000x1x128, a⟩, ⟨S100000x1x128, b⟩] concatenates_S100000x1x128_S100000x1x128_S100000x2x128_d1)
    shapeCasts_S100000x2x128_S200000x128

/-- An index array as a column. -/
def col (x : IVec S100000 32) : IVec S100000x1 32 := broadcastInDim S100000x1 ![0] bcast_S100000_S100000x1_0 x

/-- For every node the position of the last write to it (the maximum over the writes to it; the least integer
    where no write goes to it), the writes' node numbers given as two columns interleaved. -/
def lastWrite (c₂ c₁ : IVec S100000x1 32) : IVec S200000 32 :=
  Host.scatter scatter_S200000_S200000x1_S200000_n_0_0_1 IntOp.maxsi
    (broadcastInDim S200000 ![] bcast_S_S200000 (constantI S_ 32 2147483648#32))
    (broadcastInDim S200000x1 ![0] bcast_S200000_S200000x1_0
      (shapeCast S200000 (concatenate S100000x2 1 [⟨S100000x1, c₂⟩, ⟨S100000x1, c₁⟩] concatenates_S100000x1_S100000x1_S100000x2_d1)
        shapeCasts_S100000x2_S200000))
    (iotaInDim S200000 32 0)

/-- The position of the last write, cut off below at zero. -/
def clipped (c₂ c₁ : IVec S100000x1 32) : IVec S200000 32 :=
  maxsi (broadcastInDim S200000 ![] bcast_S_S200000 (id (constantI S_ 32 0#32))) (lastWrite c₂ c₁)

/-- Every node's new embedding from the interleaved rows: the row of its last write where some write goes to it,
    its old embedding elsewhere. -/
def pick (rows : FVec F S200000x128 .f32) (c₂ c₁ : IVec S100000x1 32) (x0 : FVec F S200000x128 .f32) :
    FVec F S200000x128 .f32 :=
  select
    (broadcastInDim S200000x128 ![0, 1] bcast_S200000x1_S200000x128_0_1
      (broadcastInDim S200000x1 ![0] bcast_S200000_S200000x1_0
        (cmpi .sge (lastWrite c₂ c₁) (broadcastInDim S200000 ![] bcast_S_S200000 (constantI S_ 32 0#32)))))
    (Host.gather gather_S200000x128_S200000x1_S200000x128_1_0_n_n_0_1_1128 rows
      (broadcastInDim S200000x1 ![0] bcast_S200000_S200000x1_0
        (select (cmpi .slt (clipped c₂ c₁) (broadcastInDim S200000 ![] bcast_S_S200000 (constantI S_ 32 0#32)))
          (addi (clipped c₂ c₁) (broadcastInDim S200000 ![] bcast_S_S200000 (constantI S_ 32 200000#32)))
          (clipped c₂ c₁))))
    x0

/-- Last write wins: edge e writes its destination's new embedding d e to node x2 e, then its source's new
    embedding s e to node x1 e; a node no edge touches keeps its old embedding x0. -/
def lastWins (d s : FVec F S100000x128 .f32) (x0 : FVec F S200000x128 .f32) (x1 x2 : IVec S100000 32) :
    FVec F S200000x128 .f32 :=
  pick (interleaved (mid d) (mid s)) (col x2) (col x1) x0

set_option maxRecDepth 16384 in
set_option maxHeartbeats 8000000 in
/-- The lines after the region, from any contents W of the buffers, leave lastWins of the two output arrays,
    the old embeddings and the two index arrays in the result. -/
theorem after_tail (W : Valuation τ sig (Elt F)) :
    StableHlo.after (List.flatten [hostOps1 (F := F), hostOps1_1, hostOps1_2, hostOps1_3]) W (Proc.devRef .tc main_v46)
      = lastWins (W (Proc.devRef .tc main_v22_0)) (W (Proc.devRef .tc main_v22_1)) (W (Proc.devRef .tc main_arg0))
          (W (Proc.devRef .tc main_arg1)) (W (Proc.devRef .tc main_arg2)) := by
  simp only [hostOps1, hostOps1_1, hostOps1_2, hostOps1_3, List.flatten_cons, List.flatten_nil, List.append_nil, List.cons_append,
    List.nil_append]
  after_results_simp
  simp only [TRef.ofBuf, TRef.toBuf, cast_eq]
  rfl

end Cert.KernelIdeal.Tail

end
-- ==== Proof.KernelRun.lean ====
/-
  The kernel's run with its result named.

  After the region the two output arrays hold the destinations' and the sources' new embeddings of all edges
  (the blocks module), every other buffer what the lines before the region left there, and the lines after
  the region compute last-write-wins of those two arrays, the node table and the two index arrays (the tail
  module). So the run ends with the result at lastWins of them, and the arguments as launched.
-/
import proofs.«179589_j70557722738855_1_alg».proof.Proof.Blocks
import proofs.«179589_j70557722738855_1_alg».proof.Proof.KernelTail

set_option maxRecDepth 16384

noncomputable section

namespace Cert.KernelIdeal.Whole

open Cert.KernelIdeal Cert.KernelIdeal.Gen Cert.KernelIdeal.Blocks Cert.KernelIdeal.Tail Cert.EdgeRows
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- What the result buffer holds after the run. -/
def result (c : Dev nD) : FVec Ideal S200000x128 .f32 :=
  lastWins (dstNew m c) (srcNew m c) (m ((c.tc : Thread nD τ).loc main_arg0)) (m ((c.tc : Thread nD τ).loc main_arg1))
    (m ((c.tc : Thread nD τ).loc main_arg2))

set_option maxHeartbeats 2000000 in
/-- The lines after the region leave the result at lastWins of what the region left in its two output arrays. -/
theorem tail_eq (c : Dev nD) :
    Pipeline.afterTail₀ cfgs (dats m) 0 (V0 m) [hostOps1, hostOps1_1, hostOps1_2, hostOps1_3] c main_v46 = result m c := by
  have e12 : Pipeline.withArrays (cfgs 0).spec c (V0 m c) (fun w => (dats m 0 c).arrAt w (cfgs 0).N) (Proc.devRef .tc main_v22_0)
      = dstNew m c :=
    (Pipeline.withArrays_arr spec0 launch0.win.arr_inj c (V0 m c) (fun w => (dats m 0 c).arrAt w cfg0.N) 12).trans (final12 m c)
  have e13 : Pipeline.withArrays (cfgs 0).spec c (V0 m c) (fun w => (dats m 0 c).arrAt w (cfgs 0).N) (Proc.devRef .tc main_v22_1)
      = srcNew m c :=
    (Pipeline.withArrays_arr spec0 launch0.win.arr_inj c (V0 m c) (fun w => (dats m 0 c).arrAt w cfg0.N) 13).trans (final13 m c)
  have e0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀ result
  rw [after_tail, e12, e13, e0, e1, e2]

set_option backward.isDefEq.respectTransparency.types false in
/-- Every weakly fair execution of the kernel's @main terminates with the result at lastWins of the new
    embeddings and the arguments as launched. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v46 (Pipeline.mem_restRefs_of main_v46 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.KernelIdeal.Whole

end
-- ==== Proof.KernelEntry.lean ====
/-
  What the region finds: the lines before it.

  Before the region @main gathers the source rows and the destination rows out of the node table, changes the
  four weight matrices to the matrix unit's float format (the identity over the extended reals) and reshapes
  the four biases to rows. So the arrays the region stages are gathered of the node table and the index
  arrays, and the weights it finds are the argument matrices by (row, column) and the argument biases by entry.
-/
import proofs.«179589_j70557722738855_1_alg».proof.Proof.Blocks
import Idealize.ShloMosaic.Lib.StableHlo.Run

set_option maxRecDepth 16384

noncomputable section

namespace Cert.KernelIdeal.Entry

open Cert.KernelIdeal Cert.KernelIdeal.Gen Cert.KernelIdeal.Blocks Cert.KernelIdeal.Rows Cert.EdgeRows
open Idealize.ShloMosaic Idealize.ShloMosaic.TcCoe Idealize.ShloMosaic.ValueIdx Idealize.SL.Sem Idealize.ShloMosaic.StableHlo

section
variable {F : FTy → Type} [FloatOps F]

/-- The rows of the node table at the given node numbers (a negative number counts from the end). -/
def gathered (x0 : FVec F S200000x128 .f32) (ids : IVec S100000 32) : FVec F S100000x128 .f32 :=
  Host.gather gather_S200000x128_S100000x1_S100000x128_1_0_n_n_0_1_1128 x0
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 200000#32))) ids))

end

variable (m : (ℓ : Loc nD τ sig) → Buf (Elt Ideal) ℓ)

set_option maxHeartbeats 2000000 in
theorem V_src (c : Dev nD) : V m c main_v6 = gathered (F := Ideal) (m ((c.tc : Thread nD τ).loc main_arg0)) (m ((c.tc : Thread nD τ).loc main_arg1)) := by
  show StableHlo.after hostOps0 (fun b => m (c, b)) (Proc.devRef .tc main_v6) = _
  simp only [hostOps0]
  after_results_simp
  try rfl

set_option maxHeartbeats 2000000 in
theorem V_dst (c : Dev nD) : V m c main_v13 = gathered (F := Ideal) (m ((c.tc : Thread nD τ).loc main_arg0)) (m ((c.tc : Thread nD τ).loc main_arg2)) := by
  show StableHlo.after hostOps0 (fun b => m (c, b)) (Proc.devRef .tc main_v13) = _
  simp only [hostOps0]
  after_results_simp
  try rfl

set_option maxHeartbeats 2000000 in
theorem V_mW1 (c : Dev nD) : V m c main_v14 = (truncf (F := Ideal) .bf16 ((m ((c.tc : Thread nD τ).loc main_arg5)) : FVec Ideal S528x128 .f32) bitsLt_bf16_f32 : FVec Ideal S528x128 .bf16) := by
  show StableHlo.after hostOps0 (fun b => m (c, b)) (Proc.devRef .tc main_v14) = _
  simp only [hostOps0]
  after_results_simp
  try rfl

set_option maxHeartbeats 2000000 in
theorem V_mW2 (c : Dev nD) : V m c main_v15 = (truncf (F := Ideal) .bf16 ((m ((c.tc : Thread nD τ).loc main_arg7)) : FVec Ideal S128x128 .f32) bitsLt_bf16_f32 : FVec Ideal S128x128 .bf16) := by
  show StableHlo.after hostOps0 (fun b => m (c, b)) (Proc.devRef .tc main_v15) = _
  simp only [hostOps0]
  after_results_simp
  try rfl

set_option maxHeartbeats 2000000 in
theorem V_uW1 (c : Dev nD) : V m c main_v16 = (truncf (F := Ideal) .bf16 ((m ((c.tc : Thread nD τ).loc main_arg9)) : FVec Ideal S256x128 .f32) bitsLt_bf16_f32 : FVec Ideal S256x128 .bf16) := by
  show StableHlo.after hostOps0 (fun b => m (c, b)) (Proc.devRef .tc main_v16) = _
  simp only [hostOps0]
  after_results_simp
  try rfl

set_option maxHeartbeats 2000000 in
theorem V_uW2 (c : Dev nD) : V m c main_v17 = (truncf (F := Ideal) .bf16 ((m ((c.tc : Thread nD τ).loc main_arg11)) : FVec Ideal S128x128 .f32) bitsLt_bf16_f32 : FVec Ideal S128x128 .bf16) := by
  show StableHlo.after hostOps0 (fun b => m (c, b)) (Proc.devRef .tc main_v17) = _
  simp only [hostOps0]
  after_results_simp
  try rfl

set_option maxHeartbeats 2000000 in
theorem V_mb1 (c : Dev nD) : V m c main_v18 = shapeCast S1x128 (m ((c.tc : Thread nD τ).loc main_arg6)) shapeCasts_S128_S1x128 := by
  show StableHlo.after hostOps0 (fun b => m (c, b)) (Proc.devRef .tc main_v18) = _
  simp only [hostOps0]
  after_results_simp
  try rfl

set_option maxHeartbeats 2000000 in
theorem V_mb2 (c : Dev nD) : V m c main_v19 = shapeCast S1x128 (m ((c.tc : Thread nD τ).loc main_arg8)) shapeCasts_S128_S1x128 := by
  show StableHlo.after hostOps0 (fun b => m (c, b)) (Proc.devRef .tc main_v19) = _
  simp only [hostOps0]
  after_results_simp
  try rfl

set_option maxHeartbeats 2000000 in
theorem V_ub1 (c : Dev nD) : V m c main_v20 = shapeCast S1x128 (m ((c.tc : Thread nD τ).loc main_arg10)) shapeCasts_S128_S1x128 := by
  show StableHlo.after hostOps0 (fun b => m (c, b)) (Proc.devRef .tc main_v20) = _
  simp only [hostOps0]
  after_results_simp
  try rfl

set_option maxHeartbeats 2000000 in
theorem V_ub2 (c : Dev nD) : V m c main_v21 = shapeCast S1x128 (m ((c.tc : Thread nD τ).loc main_arg12)) shapeCasts_S128_S1x128 := by
  show StableHlo.after hostOps0 (fun b => m (c, b)) (Proc.devRef .tc main_v21) = _
  simp only [hostOps0]
  after_results_simp
  try rfl

/-- A bias reshaped to a row, at its entry j, is the bias's entry j. -/
theorem biasRow_apply (b : Vec Ideal S128 .f32) (h : S128.ShapeCasts S1x128) (j : Fin 128) :
    shapeCast S1x128 b h (ix2 0 j) = b (ix1 j) := by
  refine (shapeCast_addUnit_apply ![128] b h (ix2 0 j)).trans (congrArg b (funext fun a => ?_))
  match a with
  | ⟨0, _⟩ => rfl

/-- The weights the region finds are the argument matrices by (row, column) and the argument biases by entry. -/
theorem entryWeights_eq (c : Dev nD) :
    entryWeights m c = weightsOf (m ((c.tc : Thread nD τ).loc main_arg5)) (fun j => (m ((c.tc : Thread nD τ).loc main_arg6)) (ix1 j)) (m ((c.tc : Thread nD τ).loc main_arg7)) (fun j => (m ((c.tc : Thread nD τ).loc main_arg8)) (ix1 j))
      (m ((c.tc : Thread nD τ).loc main_arg9)) (fun j => (m ((c.tc : Thread nD τ).loc main_arg10)) (ix1 j)) (m ((c.tc : Thread nD τ).loc main_arg11)) (fun j => (m ((c.tc : Thread nD τ).loc main_arg12)) (ix1 j)) := by
  unfold entryWeights blkWeights
  rw [V_mW1, V_mW2, V_uW1, V_uW2, V_mb1, V_mb2, V_ub1, V_ub2]
  unfold weightsOf
  congr 1 <;> funext j <;> exact biasRow_apply _ _ j

end Cert.KernelIdeal.Entry

end
-- ==== Proof.RefFns.lean ====
/-
  The reference's computation as a few named functions of whole arrays.

  gathered: the rows of the node table at the source (or destination) node numbers; msgArr: the message
  perceptron on all edges at once; updArr: the update perceptron on an endpoint's rows and the messages; and the
  last stretch, last write wins, in its pieces (mid, interleaved, col, lastWrite, clipped, pick, lastWins). They
  are stated over any float family; the operations are the host program's own.
-/
import proofs.«179589_j70557722738855_1_alg».proof.Proof.Gen.ReferenceIdeal

noncomputable section

namespace Cert.ReferenceIdeal.Fns

open Cert.ReferenceIdeal Cert.ReferenceIdeal.Gen
open Idealize.ShloMosaic Idealize.ShloMosaic.TcCoe Idealize.SL.Sem

variable {F : FTy → Type} [FloatOps F]

/-- The rows of the node table at the given node numbers (a negative number counts from the end). -/
def gathered (x0 : FVec F S200000x128 .f32) (ids : IVec S100000 32) : FVec F S100000x128 .f32 :=
  Host.gather gather_S200000x128_S100000x1_S100000x128_1_0_n_n_0_1_1128 x0
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 200000#32))) ids))

/-- The messages of all edges: the message perceptron on source rows, destination rows, edge features and time
    features laid side by side. -/
def msgArr (s d : FVec F S100000x128 .f32) (e : FVec F S100000x172 .f32) (t : FVec F S100000x100 .f32)
    (W₁ : FVec F S528x128 .f32) (b₁ : FVec F S128 .f32) (W₂ : FVec F S128x128 .f32) (b₂ : FVec F S128 .f32) :
    FVec F S100000x128 .f32 :=
  addf (Host.dotGeneral dot_S100000x128_S128x128_S100000x128_1_0_0_1_n_n none
      (maximumf (addf (Host.dotGeneral dot_S100000x528_S528x128_S100000x128_1_0_0_1_n_n none
          (concatenate S100000x528 1 [⟨S100000x128, s⟩, ⟨S100000x128, d⟩, ⟨S100000x172, e⟩, ⟨S100000x100, t⟩]
            concatenates_S100000x128_S100000x128_S100000x172_S100000x100_S100000x528_d1) W₁)
          (broadcastInDim S100000x128 ![0, 1] bcast_S1x128_S100000x128_0_1 (broadcastInDim S1x128 ![1] bcast_S128_S1x128_1 b₁)))
        (broadcastInDim S100000x128 ![] bcast_S_S100000x128 (constant S_ .f32 0x00000000#32))) W₂)
    (broadcastInDim S100000x128 ![0, 1] bcast_S1x128_S100000x128_0_1 (broadcastInDim S1x128 ![1] bcast_S128_S1x128_1 b₂))

/-- The new embeddings of one endpoint of all edges: the update perceptron on the endpoint's rows and the
    messages laid side by side. -/
def updArr (a msg : FVec F S100000x128 .f32) (W₁ : FVec F S256x128 .f32) (b₁ : FVec F S128 .f32)
    (W₂ : FVec F S128x128 .f32) (b₂ : FVec F S128 .f32) : FVec F S100000x128 .f32 :=
  addf (Host.dotGeneral dot_S100000x128_S128x128_S100000x128_1_0_0_1_n_n none
      (maximumf (addf (Host.dotGeneral dot_S100000x256_S256x128_S100000x128_1_0_0_1_n_n none
          (concatenate S100000x256 1 [⟨S100000x128, a⟩, ⟨S100000x128, msg⟩] concatenates_S100000x128_S100000x128_S100000x256_d1) W₁)
          (broadcastInDim S100000x128 ![0, 1] bcast_S1x128_S100000x128_0_1 (broadcastInDim S1x128 ![1] bcast_S128_S1x128_1 b₁)))
        (broadcastInDim S100000x128 ![] bcast_S_S100000x128 (constant S_ .f32 0x00000000#32))) W₂)
    (broadcastInDim S100000x128 ![0, 1] bcast_S1x128_S100000x128_0_1 (broadcastInDim S1x128 ![1] bcast_S128_S1x128_1 b₂))

/-- An array of per-edge rows with a middle axis of extent one, ready to be interleaved. -/
def mid (x : FVec F S100000x128 .f32) : FVec F S100000x1x128 .f32 :=
  broadcastInDim S100000x1x128 ![0, 2] bcast_S100000x128_S100000x1x128_0_2 x

/-- Two arrays of per-edge rows interleaved: row 2e is the first array's row e, row 2e + 1 the second's. -/
def interleaved (a b : FVec F S100000x1x128 .f32) : FVec F S200000x128 .f32 :=
  shapeCast S200000x128
    (concatenate S100000x2x128 1 [⟨S100000x1x128, a⟩, ⟨S100000x1x128, b⟩] concatenates_S100000x1x128_S100000x1x128_S100000x2x128_d1)
    shapeCasts_S100000x2x128_S200000x128

/-- An index array as a column. -/
def col (x : IVec S100000 32) : IVec S100000x1 32 := broadcastInDim S100000x1 ![0] bcast_S100000_S100000x1_0 x

/-- For every node the position of the last write to it (the maximum over the writes to it; the least integer
    where no write goes to it), the writes' node numbers given as two columns interleaved. -/
def lastWrite (c₂ c₁ : IVec S100000x1 32) : IVec S200000 32 :=
  Host.scatter scatter_S200000_S200000x1_S200000_n_0_0_1 IntOp.maxsi
    (broadcastInDim S200000 ![] bcast_S_S200000 (constantI S_ 32 2147483648#32))
    (broadcastInDim S200000x1 ![0] bcast_S200000_S200000x1_0
      (shapeCast S200000 (concatenate S100000x2 1 [⟨S100000x1, c₂⟩, ⟨S100000x1, c₁⟩] concatenates_S100000x1_S100000x1_S100000x2_d1)
        shapeCasts_S100000x2_S200000))
    (iotaInDim S200000 32 0)

/-- The position of the last write, cut off below at zero. -/
def clipped (c₂ c₁ : IVec S100000x1 32) : IVec S200000 32 :=
  maxsi (broadcastInDim S200000 ![] bcast_S_S200000 (id (constantI S_ 32 0#32))) (lastWrite c₂ c₁)

/-- Every node's new embedding from the interleaved rows: the row of its last write where some write goes to it,
    its old embedding elsewhere. -/
def pick (rows : FVec F S200000x128 .f32) (c₂ c₁ : IVec S100000x1 32) (x0 : FVec F S200000x128 .f32) :
    FVec F S200000x128 .f32 :=
  select
    (broadcastInDim S200000x128 ![0, 1] bcast_S200000x1_S200000x128_0_1
      (broadcastInDim S200000x1 ![0] bcast_S200000_S200000x1_0
        (cmpi .sge (lastWrite c₂ c₁) (broadcastInDim S200000 ![] bcast_S_S200000 (constantI S_ 32 0#32)))))
    (Host.gather gather_S200000x128_S200000x1_S200000x128_1_0_n_n_0_1_1128 rows
      (broadcastInDim S200000x1 ![0] bcast_S200000_S200000x1_0
        (select (cmpi .slt (clipped c₂ c₁) (broadcastInDim S200000 ![] bcast_S_S200000 (constantI S_ 32 0#32)))
          (addi (clipped c₂ c₁) (broadcastInDim S200000 ![] bcast_S_S200000 (constantI S_ 32 200000#32)))
          (clipped c₂ c₁))))
    x0

/-- Last write wins: edge e writes its destination's new embedding d e to node x2 e, then its source's new
    embedding s e to node x1 e; a node no edge touches keeps its old embedding x0. -/
def lastWins (d s : FVec F S100000x128 .f32) (x0 : FVec F S200000x128 .f32) (x1 x2 : IVec S100000 32) :
    FVec F S200000x128 .f32 :=
  pick (interleaved (mid d) (mid s)) (col x2) (col x1) x0

end Cert.ReferenceIdeal.Fns

end
-- ==== Proof.RefStages.lean ====
/-
  The reference's operations, evaluated in stretches.

  The reference's @main is one straight line of 86 host operations. Read as a fold over the buffers' contents
  it is cut here into six stretches, each starting at a concatenation (so that a concatenation always reads
  buffers the stretch before left, never a value still to be computed): the two gathers of node rows; the
  message perceptron; the destinations' update; the sources' update with the two middle axes; the interleaving
  and the index columns; last write wins. For each stretch and each buffer a later stretch reads, one lemma
  says what the stretch leaves there, from ANY contents W before it and over any float family. Chained, they
  give the result of the whole line as lastWins of the two update arrays, the node table and the two index
  arrays.
-/
import proofs.«179589_j70557722738855_1_alg».proof.Proof.RefRun
import proofs.«179589_j70557722738855_1_alg».proof.Proof.RefFns
import Idealize.ShloMosaic.Lib.Pipeline.Frame

noncomputable section

namespace Cert.ReferenceIdeal.Stages

open Cert.ReferenceIdeal Cert.ReferenceIdeal.Gen Cert.ReferenceIdeal.Value Cert.ReferenceIdeal.Fns
open Idealize.ShloMosaic Idealize.ShloMosaic.TcCoe Idealize.SL.Sem Idealize.ShloMosaic.StableHlo

variable {F : FTy → Type} [FloatOps F]

/-! ## The six stretches -/

/-- Operations 1 to 18 of @main. -/
def stage1 : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg1 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 200000#32),
    unary main_c_0 main_v2 (broadcastInDim S100000 ![] bcast_S_S100000 : (⟨S_, .i32⟩ : BufTy).Contents (Elt F) → (⟨S100000, .i32⟩ : BufTy).Contents (Elt F)),
    binary main_arg1 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg0 main_v5 main_v6 ((fun x i => Host.gather gather_S200000x128_S100000x1_S100000x128_1_0_n_n_0_1_1128 x i) : (⟨S200000x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_arg2 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 200000#32),
    unary main_c_2 main_v9 (broadcastInDim S100000 ![] bcast_S_S100000 : (⟨S_, .i32⟩ : BufTy).Contents (Elt F) → (⟨S100000, .i32⟩ : BufTy).Contents (Elt F)),
    binary main_arg2 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_arg2 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg0 main_v12 main_v13 ((fun x i => Host.gather gather_S200000x128_S100000x1_S100000x128_1_0_n_n_0_1_1128 x i) : (⟨S200000x128, .f32⟩ : BufTy).Contents (Elt F) → (⟨S100000x1, .i32⟩ : BufTy).Contents (Elt F) → (⟨S100000x128, .f32⟩ : BufTy).Contents (Elt F)) ]

/-- Operations 19 to 30 of @main. -/
def stage2 : List (HloOp τ sig (Elt F)) :=
  [ nary ![main_v6, main_v13, main_arg3, main_arg4] main_v14 (fun u => concatenate S100000x528 1 [⟨S100000x128, u 0⟩, ⟨S100000x128, u 1⟩, ⟨S100000x172, u 2⟩, ⟨S100000x100, u 3⟩] concatenates_S100000x128_S100000x128_S100000x172_S100000x100_S100000x528_d1),
    binary main_v14 main_arg5 main_v15 ((fun l r => Host.dotGeneral dot_S100000x528_S528x128_S100000x128_1_0_0_1_n_n none l r) : (⟨S100000x528, .f32⟩ : BufTy).Contents (Elt F) → (⟨S528x128, .f32⟩ : BufTy).Contents (Elt F) → (⟨S100000x128, .f32⟩ : BufTy).Contents (Elt F)),
    unary main_arg6 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v18) (TRef.of (T := ⟨S100000x128, .f32⟩) main_call0_v0) (TRef.of (T := ⟨S100000x128, .f32⟩) main_v19) maximumf,
    binary main_v19 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)) ]

/-- Operations 31 to 42 of @main. -/
def stage3 : List (HloOp τ sig (Elt F)) :=
  [ binary main_v13 main_v23 main_v24 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v24 main_arg9 main_v25 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v28) (TRef.of (T := ⟨S100000x128, .f32⟩) main_call1_v0) (TRef.of (T := ⟨S100000x128, .f32⟩) main_v29) maximumf,
    binary main_v29 main_arg11 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)) ]

/-- Operations 43 to 56 of @main. -/
def stage4 : List (HloOp τ sig (Elt F)) :=
  [ binary main_v6 main_v23 main_v34 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v34 main_arg9 main_v35 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v38) (TRef.of (T := ⟨S100000x128, .f32⟩) main_call2_v0) (TRef.of (T := ⟨S100000x128, .f32⟩) main_v39) maximumf,
    binary main_v39 main_arg11 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    unary main_v33 main_v44 (broadcastInDim S100000x1x128 ![0, 2] bcast_S100000x128_S100000x1x128_0_2 : (⟨S100000x128, .f32⟩ : BufTy).Contents (Elt F) → (⟨S100000x1x128, .f32⟩ : BufTy).Contents (Elt F)),
    unary main_v43 main_v45 (broadcastInDim S100000x1x128 ![0, 2] bcast_S100000x128_S100000x1x128_0_2 : (⟨S100000x128, .f32⟩ : BufTy).Contents (Elt F) → (⟨S100000x1x128, .f32⟩ : BufTy).Contents (Elt F)) ]

/-- Operations 57 to 60 of @main. -/
def stage5 : List (HloOp τ sig (Elt F)) :=
  [ binary main_v44 main_v45 main_v46 ((fun a b => concatenate S100000x2x128 1 [⟨S100000x1x128, a⟩, ⟨S100000x1x128, b⟩] concatenates_S100000x1x128_S100000x1x128_S100000x2x128_d1) : (⟨S100000x1x128, .f32⟩ : BufTy).Contents (Elt F) → (⟨S100000x1x128, .f32⟩ : BufTy).Contents (Elt F) → (⟨S100000x2x128, .f32⟩ : BufTy).Contents (Elt F)),
    reshape main_v46 main_v47 rfl shapeCasts_S100000x2x128_S200000x128,
    unary main_arg2 main_v48 (broadcastInDim S100000x1 ![0] bcast_S100000_S100000x1_0 : (⟨S100000, .i32⟩ : BufTy).Contents (Elt F) → (⟨S100000x1, .i32⟩ : BufTy).Contents (Elt F)),
    unary main_arg1 main_v49 (broadcastInDim S100000x1 ![0] bcast_S100000_S100000x1_0 : (⟨S100000, .i32⟩ : BufTy).Contents (Elt F) → (⟨S100000x1, .i32⟩ : BufTy).Contents (Elt F)) ]

/-- Operations 61 to 86 of @main. -/
def stage6 : List (HloOp τ sig (Elt F)) :=
  [ binary main_v48 main_v49 main_v50 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    reshape main_v50 main_v51 rfl shapeCasts_S100000x2_S200000,
    nullary main_v52 (iotaInDim S200000 32 0),
    nullary main_c_3 (constantI S_ 32 2147483648#32),
    unary main_c_3 main_v53 (broadcastInDim S200000 ![] bcast_S_S200000 : (⟨S_, .i32⟩ : BufTy).Contents (Elt F) → (⟨S200000, .i32⟩ : BufTy).Contents (Elt F)),
    unary main_v51 main_v54 (broadcastInDim S200000x1 ![0] bcast_S200000_S200000x1_0 : (⟨S200000, .i32⟩ : BufTy).Contents (Elt F) → (⟨S200000x1, .i32⟩ : BufTy).Contents (Elt F)),
    ternary main_v53 main_v54 main_v52 main_v55 ((fun x i u => Host.scatter scatter_S200000_S200000x1_S200000_n_0_0_1 IntOp.maxsi x i u) : (⟨S200000, .i32⟩ : BufTy).Contents (Elt F) → (⟨S200000x1, .i32⟩ : BufTy).Contents (Elt F) → (⟨S200000, .i32⟩ : BufTy).Contents (Elt F) → (⟨S200000, .i32⟩ : BufTy).Contents (Elt F)),
    nullary main_c_4 (constantI S_ 32 0#32),
    unary main_c_4 main_v56 (broadcastInDim S200000 ![] bcast_S_S200000 : (⟨S_, .i32⟩ : BufTy).Contents (Elt F) → (⟨S200000, .i32⟩ : BufTy).Contents (Elt F)),
    binary main_v55 main_v56 main_v57 (cmpi .sge : (⟨S200000, .i32⟩ : BufTy).Contents (Elt F) → (⟨S200000, .i32⟩ : BufTy).Contents (Elt F) → (⟨S200000, .i1⟩ : BufTy).Contents (Elt F)),
    nullary main_c_5 (constantI S_ 32 0#32),
    TRef.unary (TRef.of (T := ⟨S_, .i32⟩) main_c_5) (TRef.of (T := ⟨S_, .i32⟩) main_call3_v0) id,
    TRef.unary (TRef.of (T := ⟨S_, .i32⟩) main_call3_v0) (TRef.of (T := ⟨S200000, .i32⟩) main_call3_v1) (broadcastInDim S200000 ![] bcast_S_S200000),
    TRef.binary (TRef.of (T := ⟨S200000, .i32⟩) main_call3_v1) (TRef.of (T := ⟨S200000, .i32⟩) main_v55) (TRef.of (T := ⟨S200000, .i32⟩) main_v58) maxsi,
    nullary main_c_6 (constantI S_ 32 0#32),
    unary main_c_6 main_v59 (broadcastInDim S200000 ![] bcast_S_S200000 : (⟨S_, .i32⟩ : BufTy).Contents (Elt F) → (⟨S200000, .i32⟩ : BufTy).Contents (Elt F)),
    binary main_v58 main_v59 main_v60 (cmpi .slt : (⟨S200000, .i32⟩ : BufTy).Contents (Elt F) → (⟨S200000, .i32⟩ : BufTy).Contents (Elt F) → (⟨S200000, .i1⟩ : BufTy).Contents (Elt F)),
    nullary main_c_7 (constantI S_ 32 200000#32),
    unary main_c_7 main_v61 (broadcastInDim S200000 ![] bcast_S_S200000 : (⟨S_, .i32⟩ : BufTy).Contents (Elt F) → (⟨S200000, .i32⟩ : BufTy).Contents (Elt F)),
    binary main_v58 main_v61 main_v62 (addi : (⟨S200000, .i32⟩ : BufTy).Contents (Elt F) → (⟨S200000, .i32⟩ : BufTy).Contents (Elt F) → (⟨S200000, .i32⟩ : BufTy).Contents (Elt F)),
    ternary main_v60 main_v62 main_v58 main_v63 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v63 main_v64 (broadcastInDim S200000x1 ![0] bcast_S200000_S200000x1_0 : (⟨S200000, .i32⟩ : BufTy).Contents (Elt F) → (⟨S200000x1, .i32⟩ : BufTy).Contents (Elt F)),
    binary main_v47 main_v64 main_v65 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    unary main_v57 main_v66 (broadcastInDim S200000x1 ![0] bcast_S200000_S200000x1_0 : (⟨S200000, .i1⟩ : BufTy).Contents (Elt F) → (⟨S200000x1, .i1⟩ : BufTy).Contents (Elt F)),
    TRef.unary (TRef.of (T := ⟨S200000x1, .i1⟩) main_v66) (TRef.of (T := ⟨S200000x128, .i1⟩) main_call4_v0) (broadcastInDim S200000x128 ![0, 1] bcast_S200000x1_S200000x128_0_1),
    TRef.ternary (TRef.of (T := ⟨S200000x128, .i1⟩) main_call4_v0) (TRef.of (T := ⟨S200000x128, .f32⟩) main_v65) (TRef.of (T := ⟨S200000x128, .f32⟩) main_arg0) (TRef.of (T := ⟨S200000x128, .f32⟩) main_v67) select ]

set_option maxRecDepth 8192 in
theorem ops_split : (ops (F := F)) = stage1 ++ (stage2 ++ (stage3 ++ (stage4 ++ (stage5 ++ stage6)))) := rfl

/-! ## What each stretch leaves in the buffers later stretches read -/

set_option maxRecDepth 16384 in
set_option maxHeartbeats 4000000 in
theorem s1_v6 (W : Valuation τ sig (Elt F)) :
    after (stage1 (F := F)) W (Proc.devRef .tc main_v6) = gathered (W (Proc.devRef .tc main_arg0)) (W (Proc.devRef .tc main_arg1)) := by
  simp only [stage1]
  after_results_simp
  try simp only [TRef.ofBuf, TRef.toBuf, cast_eq]
  try rfl

set_option maxRecDepth 16384 in
set_option maxHeartbeats 4000000 in
theorem s1_v13 (W : Valuation τ sig (Elt F)) :
    after (stage1 (F := F)) W (Proc.devRef .tc main_v13) = gathered (W (Proc.devRef .tc main_arg0)) (W (Proc.devRef .tc main_arg2)) := by
  simp only [stage1]
  after_results_simp
  try simp only [TRef.ofBuf, TRef.toBuf, cast_eq]
  try rfl

set_option maxRecDepth 16384 in
set_option maxHeartbeats 4000000 in
theorem s1_arg0 (W : Valuation τ sig (Elt F)) :
    after (stage1 (F := F)) W (Proc.devRef .tc main_arg0) = W (Proc.devRef .tc main_arg0) := by
  simp only [stage1]
  after_results_simp
  try simp only [TRef.ofBuf, TRef.toBuf, cast_eq]
  try rfl

set_option maxRecDepth 16384 in
set_option maxHeartbeats 4000000 in
theorem s1_arg1 (W : Valuation τ sig (Elt F)) :
    after (stage1 (F := F)) W (Proc.devRef .tc main_arg1) = W (Proc.devRef .tc main_arg1) := by
  simp only [stage1]
  after_results_simp
  try simp only [TRef.ofBuf, TRef.toBuf, cast_eq]
  try rfl

set_option maxRecDepth 16384 in
set_option maxHeartbeats 4000000 in
theorem s1_arg2 (W : Valuation τ sig (Elt F)) :
    after (stage1 (F := F)) W (Proc.devRef .tc main_arg2) = W (Proc.devRef .tc main_arg2) := by
  simp only [stage1]
  after_results_simp
  try simp only [TRef.ofBuf, TRef.toBuf, cast_eq]
  try rfl

set_option maxRecDepth 16384 in
set_option maxHeartbeats 4000000 in
theorem s1_arg3 (W : Valuation τ sig (Elt F)) :
    after (stage1 (F := F)) W (Proc.devRef .tc main_arg3) = W (Proc.devRef .tc main_arg3) := by
  simp only [stage1]
  after_results_simp
  try simp only [TRef.ofBuf, TRef.toBuf, cast_eq]
  try rfl

set_option maxRecDepth 16384 in
set_option maxHeartbeats 4000000 in
theorem s1_arg4 (W : Valuation τ sig (Elt F)) :
    after (stage1 (F := F)) W (Proc.devRef .tc main_arg4) = W (Proc.devRef .tc main_arg4) := by
  simp only [stage1]
  after_results_simp
  try simp only [TRef.ofBuf, TRef.toBuf, cast_eq]
  try rfl

set_option maxRecDepth 16384 in
set_option maxHeartbeats 4000000 in
theorem s1_arg5 (W : Valuation τ sig (Elt F)) :
    after (stage1 (F := F)) W (Proc.devRef .tc main_arg5) = W (Proc.devRef .tc main_arg5) := by
  simp only [stage1]
  after_results_simp
  try simp only [TRef.ofBuf, TRef.toBuf, cast_eq]
  try rfl

set_option maxRecDepth 16384 in
set_option maxHeartbeats 4000000 in
theorem s1_arg6 (W : Valuation τ sig (Elt F)) :
    after (stage1 (F := F)) W (Proc.devRef .tc main_arg6) = W (Proc.devRef .tc main_arg6) := by
  simp only [stage1]
  after_results_simp
  try simp only [TRef.ofBuf, TRef.toBuf, cast_eq]
  try rfl

set_option maxRecDepth 16384 in
set_option maxHeartbeats 4000000 in
theorem s1_arg7 (W : Valuation τ sig (Elt F)) :
    after (stage1 (F := F)) W (Proc.devRef .tc main_arg7) = W (Proc.devRef .tc main_arg7) := by
  simp only [stage1]
  after_results_simp
  try simp only [TRef.ofBuf, TRef.toBuf, cast_eq]
  try rfl

set_option maxRecDepth 16384 in
set_option maxHeartbeats 4000000 in
theorem s1_arg8 (W : Valuation τ sig (Elt F)) :
    after (stage1 (F := F)) W (Proc.devRef .tc main_arg8) = W (Proc.devRef .tc main_arg8) := by
  simp only [stage1]
  after_results_simp
  try simp only [TRef.ofBuf, TRef.toBuf, cast_eq]
  try rfl

set_option maxRecDepth 16384 in
set_option maxHeartbeats 4000000 in
theorem s1_arg9 (W : Valuation τ sig (Elt F)) :
    after (stage1 (F := F)) W (Proc.devRef .tc main_arg9) = W (Proc.devRef .tc main_arg9) := by
  simp only [stage1]
  after_results_simp
  try simp only [TRef.ofBuf, TRef.toBuf, cast_eq]
  try rfl

set_option maxRecDepth 16384 in
set_option maxHeartbeats 4000000 in
theorem s1_arg10 (W : Valuation τ sig (Elt F)) :
    after (stage1 (F := F)) W (Proc.devRef .tc main_arg10) = W (Proc.devRef .tc main_arg10) := by
  simp only [stage1]
  after_results_simp
  try simp only [TRef.ofBuf, TRef.toBuf, cast_eq]
  try rfl

set_option maxRecDepth 16384 in
set_option maxHeartbeats 4000000 in
theorem s1_arg11 (W : Valuation τ sig (Elt F)) :
    after (stage1 (F := F)) W (Proc.devRef .tc main_arg11) = W (Proc.devRef .tc main_arg11) := by
  simp only [stage1]
  after_results_simp
  try simp only [TRef.ofBuf, TRef.toBuf, cast_eq]
  try rfl

set_option maxRecDepth 16384 in
set_option maxHeartbeats 4000000 in
theorem s1_arg12 (W : Valuation τ sig (Elt F)) :
    after (stage1 (F := F)) W (Proc.devRef .tc main_arg12) = W (Proc.devRef .tc main_arg12) := by
  simp only [stage1]
  after_results_simp
  try simp only [TRef.ofBuf, TRef.toBuf, cast_eq]
  try rfl

set_option maxRecDepth 16384 in
set_option maxHeartbeats 4000000 in
theorem s2_v23 (W : Valuation τ sig (Elt F)) :
    after (stage2 (F := F)) W (Proc.devRef .tc main_v23) = msgArr (W (Proc.devRef .tc main_v6)) (W (Proc.devRef .tc main_v13)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  simp only [stage2]
  after_results_simp
  try simp only [TRef.ofBuf, TRef.toBuf, cast_eq]
  try rfl

set_option maxRecDepth 16384 in
set_option maxHeartbeats 4000000 in
theorem s2_v6 (W : Valuation τ sig (Elt F)) :
    after (stage2 (F := F)) W (Proc.devRef .tc main_v6) = W (Proc.devRef .tc main_v6) := by
  simp only [stage2]
  after_results_simp
  try simp only [TRef.ofBuf, TRef.toBuf, cast_eq]
  try rfl

set_option maxRecDepth 16384 in
set_option maxHeartbeats 4000000 in
theorem s2_v13 (W : Valuation τ sig (Elt F)) :
    after (stage2 (F := F)) W (Proc.devRef .tc main_v13) = W (Proc.devRef .tc main_v13) := by
  simp only [stage2]
  after_results_simp
  try simp only [TRef.ofBuf, TRef.toBuf, cast_eq]
  try rfl

set_option maxRecDepth 16384 in
set_option maxHeartbeats 4000000 in
theorem s2_arg0 (W : Valuation τ sig (Elt F)) :
    after (stage2 (F := F)) W (Proc.devRef .tc main_arg0) = W (Proc.devRef .tc main_arg0) := by
  simp only [stage2]
  after_results_simp
  try simp only [TRef.ofBuf, TRef.toBuf, cast_eq]
  try rfl

set_option maxRecDepth 16384 in
set_option maxHeartbeats 4000000 in
theorem s2_arg1 (W : Valuation τ sig (Elt F)) :
    after (stage2 (F := F)) W (Proc.devRef .tc main_arg1) = W (Proc.devRef .tc main_arg1) := by
  simp only [stage2]
  after_results_simp
  try simp only [TRef.ofBuf, TRef.toBuf, cast_eq]
  try rfl

set_option maxRecDepth 16384 in
set_option maxHeartbeats 4000000 in
theorem s2_arg2 (W : Valuation τ sig (Elt F)) :
    after (stage2 (F := F)) W (Proc.devRef .tc main_arg2) = W (Proc.devRef .tc main_arg2) := by
  simp only [stage2]
  after_results_simp
  try simp only [TRef.ofBuf, TRef.toBuf, cast_eq]
  try rfl

set_option maxRecDepth 16384 in
set_option maxHeartbeats 4000000 in
theorem s2_arg9 (W : Valuation τ sig (Elt F)) :
    after (stage2 (F := F)) W (Proc.devRef .tc main_arg9) = W (Proc.devRef .tc main_arg9) := by
  simp only [stage2]
  after_results_simp
  try simp only [TRef.ofBuf, TRef.toBuf, cast_eq]
  try rfl

set_option maxRecDepth 16384 in
set_option maxHeartbeats 4000000 in
theorem s2_arg10 (W : Valuation τ sig (Elt F)) :
    after (stage2 (F := F)) W (Proc.devRef .tc main_arg10) = W (Proc.devRef .tc main_arg10) := by
  simp only [stage2]
  after_results_simp
  try simp only [TRef.ofBuf, TRef.toBuf, cast_eq]
  try rfl

set_option maxRecDepth 16384 in
set_option maxHeartbeats 4000000 in
theorem s2_arg11 (W : Valuation τ sig (Elt F)) :
    after (stage2 (F := F)) W (Proc.devRef .tc main_arg11) = W (Proc.devRef .tc main_arg11) := by
  simp only [stage2]
  after_results_simp
  try simp only [TRef.ofBuf, TRef.toBuf, cast_eq]
  try rfl

set_option maxRecDepth 16384 in
set_option maxHeartbeats 4000000 in
theorem s2_arg12 (W : Valuation τ sig (Elt F)) :
    after (stage2 (F := F)) W (Proc.devRef .tc main_arg12) = W (Proc.devRef .tc main_arg12) := by
  simp only [stage2]
  after_results_simp
  try simp only [TRef.ofBuf, TRef.toBuf, cast_eq]
  try rfl

set_option maxRecDepth 16384 in
set_option maxHeartbeats 4000000 in
theorem s3_v33 (W : Valuation τ sig (Elt F)) :
    after (stage3 (F := F)) W (Proc.devRef .tc main_v33) = updArr (W (Proc.devRef .tc main_v13)) (W (Proc.devRef .tc main_v23)) (W (Proc.devRef .tc main_arg9)) (W (Proc.devRef .tc main_arg10)) (W (Proc.devRef .tc main_arg11)) (W (Proc.devRef .tc main_arg12)) := by
  simp only [stage3]
  after_results_simp
  try simp only [TRef.ofBuf, TRef.toBuf, cast_eq]
  try rfl

set_option maxRecDepth 16384 in
set_option maxHeartbeats 4000000 in
theorem s3_v6 (W : Valuation τ sig (Elt F)) :
    after (stage3 (F := F)) W (Proc.devRef .tc main_v6) = W (Proc.devRef .tc main_v6) := by
  simp only [stage3]
  after_results_simp
  try simp only [TRef.ofBuf, TRef.toBuf, cast_eq]
  try rfl

set_option maxRecDepth 16384 in
set_option maxHeartbeats 4000000 in
theorem s3_v23 (W : Valuation τ sig (Elt F)) :
    after (stage3 (F := F)) W (Proc.devRef .tc main_v23) = W (Proc.devRef .tc main_v23) := by
  simp only [stage3]
  after_results_simp
  try simp only [TRef.ofBuf, TRef.toBuf, cast_eq]
  try rfl

set_option maxRecDepth 16384 in
set_option maxHeartbeats 4000000 in
theorem s3_arg0 (W : Valuation τ sig (Elt F)) :
    after (stage3 (F := F)) W (Proc.devRef .tc main_arg0) = W (Proc.devRef .tc main_arg0) := by
  simp only [stage3]
  after_results_simp
  try simp only [TRef.ofBuf, TRef.toBuf, cast_eq]
  try rfl

set_option maxRecDepth 16384 in
set_option maxHeartbeats 4000000 in
theorem s3_arg1 (W : Valuation τ sig (Elt F)) :
    after (stage3 (F := F)) W (Proc.devRef .tc main_arg1) = W (Proc.devRef .tc main_arg1) := by
  simp only [stage3]
  after_results_simp
  try simp only [TRef.ofBuf, TRef.toBuf, cast_eq]
  try rfl

set_option maxRecDepth 16384 in
set_option maxHeartbeats 4000000 in
theorem s3_arg2 (W : Valuation τ sig (Elt F)) :
    after (stage3 (F := F)) W (Proc.devRef .tc main_arg2) = W (Proc.devRef .tc main_arg2) := by
  simp only [stage3]
  after_results_simp
  try simp only [TRef.ofBuf, TRef.toBuf, cast_eq]
  try rfl

set_option maxRecDepth 16384 in
set_option maxHeartbeats 4000000 in
theorem s3_arg9 (W : Valuation τ sig (Elt F)) :
    after (stage3 (F := F)) W (Proc.devRef .tc main_arg9) = W (Proc.devRef .tc main_arg9) := by
  simp only [stage3]
  after_results_simp
  try simp only [TRef.ofBuf, TRef.toBuf, cast_eq]
  try rfl

set_option maxRecDepth 16384 in
set_option maxHeartbeats 4000000 in
theorem s3_arg10 (W : Valuation τ sig (Elt F)) :
    after (stage3 (F := F)) W (Proc.devRef .tc main_arg10) = W (Proc.devRef .tc main_arg10) := by
  simp only [stage3]
  after_results_simp
  try simp only [TRef.ofBuf, TRef.toBuf, cast_eq]
  try rfl

set_option maxRecDepth 16384 in
set_option maxHeartbeats 4000000 in
theorem s3_arg11 (W : Valuation τ sig (Elt F)) :
    after (stage3 (F := F)) W (Proc.devRef .tc main_arg11) = W (Proc.devRef .tc main_arg11) := by
  simp only [stage3]
  after_results_simp
  try simp only [TRef.ofBuf, TRef.toBuf, cast_eq]
  try rfl

set_option maxRecDepth 16384 in
set_option maxHeartbeats 4000000 in
theorem s3_arg12 (W : Valuation τ sig (Elt F)) :
    after (stage3 (F := F)) W (Proc.devRef .tc main_arg12) = W (Proc.devRef .tc main_arg12) := by
  simp only [stage3]
  after_results_simp
  try simp only [TRef.ofBuf, TRef.toBuf, cast_eq]
  try rfl

set_option maxRecDepth 16384 in
set_option maxHeartbeats 4000000 in
theorem s4_v44 (W : Valuation τ sig (Elt F)) :
    after (stage4 (F := F)) W (Proc.devRef .tc main_v44) = mid (W (Proc.devRef .tc main_v33)) := by
  simp only [stage4]
  after_results_simp
  try simp only [TRef.ofBuf, TRef.toBuf, cast_eq]
  try rfl

set_option maxRecDepth 16384 in
set_option maxHeartbeats 4000000 in
theorem s4_v45 (W : Valuation τ sig (Elt F)) :
    after (stage4 (F := F)) W (Proc.devRef .tc main_v45) = mid (updArr (W (Proc.devRef .tc main_v6)) (W (Proc.devRef .tc main_v23)) (W (Proc.devRef .tc main_arg9)) (W (Proc.devRef .tc main_arg10)) (W (Proc.devRef .tc main_arg11)) (W (Proc.devRef .tc main_arg12))) := by
  simp only [stage4]
  after_results_simp
  try simp only [TRef.ofBuf, TRef.toBuf, cast_eq]
  try rfl

set_option maxRecDepth 16384 in
set_option maxHeartbeats 4000000 in
theorem s4_arg0 (W : Valuation τ sig (Elt F)) :
    after (stage4 (F := F)) W (Proc.devRef .tc main_arg0) = W (Proc.devRef .tc main_arg0) := by
  simp only [stage4]
  after_results_simp
  try simp only [TRef.ofBuf, TRef.toBuf, cast_eq]
  try rfl

set_option maxRecDepth 16384 in
set_option maxHeartbeats 4000000 in
theorem s4_arg1 (W : Valuation τ sig (Elt F)) :
    after (stage4 (F := F)) W (Proc.devRef .tc main_arg1) = W (Proc.devRef .tc main_arg1) := by
  simp only [stage4]
  after_results_simp
  try simp only [TRef.ofBuf, TRef.toBuf, cast_eq]
  try rfl

set_option maxRecDepth 16384 in
set_option maxHeartbeats 4000000 in
theorem s4_arg2 (W : Valuation τ sig (Elt F)) :
    after (stage4 (F := F)) W (Proc.devRef .tc main_arg2) = W (Proc.devRef .tc main_arg2) := by
  simp only [stage4]
  after_results_simp
  try simp only [TRef.ofBuf, TRef.toBuf, cast_eq]
  try rfl

set_option maxRecDepth 16384 in
set_option maxHeartbeats 4000000 in
theorem s5_v47 (W : Valuation τ sig (Elt F)) :
    after (stage5 (F := F)) W (Proc.devRef .tc main_v47) = interleaved (W (Proc.devRef .tc main_v44)) (W (Proc.devRef .tc main_v45)) := by
  simp only [stage5]
  after_results_simp
  try simp only [TRef.ofBuf, TRef.toBuf, cast_eq]
  try rfl

set_option maxRecDepth 16384 in
set_option maxHeartbeats 4000000 in
theorem s5_v48 (W : Valuation τ sig (Elt F)) :
    after (stage5 (F := F)) W (Proc.devRef .tc main_v48) = col (W (Proc.devRef .tc main_arg2)) := by
  simp only [stage5]
  after_results_simp
  try simp only [TRef.ofBuf, TRef.toBuf, cast_eq]
  try rfl

set_option maxRecDepth 16384 in
set_option maxHeartbeats 4000000 in
theorem s5_v49 (W : Valuation τ sig (Elt F)) :
    after (stage5 (F := F)) W (Proc.devRef .tc main_v49) = col (W (Proc.devRef .tc main_arg1)) := by
  simp only [stage5]
  after_results_simp
  try simp only [TRef.ofBuf, TRef.toBuf, cast_eq]
  try rfl

set_option maxRecDepth 16384 in
set_option maxHeartbeats 4000000 in
theorem s5_arg0 (W : Valuation τ sig (Elt F)) :
    after (stage5 (F := F)) W (Proc.devRef .tc main_arg0) = W (Proc.devRef .tc main_arg0) := by
  simp only [stage5]
  after_results_simp
  try simp only [TRef.ofBuf, TRef.toBuf, cast_eq]
  try rfl

set_option maxRecDepth 16384 in
set_option maxHeartbeats 4000000 in
theorem s6_v67 (W : Valuation τ sig (Elt F)) :
    after (stage6 (F := F)) W (Proc.devRef .tc main_v67) = pick (W (Proc.devRef .tc main_v47)) (W (Proc.devRef .tc main_v48)) (W (Proc.devRef .tc main_v49)) (W (Proc.devRef .tc main_arg0)) := by
  simp only [stage6]
  after_results_simp
  try simp only [TRef.ofBuf, TRef.toBuf, cast_eq]
  try rfl

/-! ## The whole line -/

set_option maxHeartbeats 4000000 in
/-- The result of the whole line, from any contents W of the buffers before it. -/
theorem after_ops (W : Valuation τ sig (Elt F)) :
    after (ops (F := F)) W (Proc.devRef .tc main_v67)
      = lastWins (updArr (gathered (W (Proc.devRef .tc main_arg0)) (W (Proc.devRef .tc main_arg2))) (msgArr (gathered (W (Proc.devRef .tc main_arg0)) (W (Proc.devRef .tc main_arg1))) (gathered (W (Proc.devRef .tc main_arg0)) (W (Proc.devRef .tc main_arg2))) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)))
          (updArr (gathered (W (Proc.devRef .tc main_arg0)) (W (Proc.devRef .tc main_arg1))) (msgArr (gathered (W (Proc.devRef .tc main_arg0)) (W (Proc.devRef .tc main_arg1))) (gathered (W (Proc.devRef .tc main_arg0)) (W (Proc.devRef .tc main_arg2))) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)))
          (W (Proc.devRef .tc main_arg0)) (W (Proc.devRef .tc main_arg1)) (W (Proc.devRef .tc main_arg2)) := by
  rw [ops_split]
  simp only [StableHlo.after_append]
  rw [s6_v67, s5_v47, s5_v48, s5_v49, s5_arg0, s4_v44, s4_v45, s4_arg0, s4_arg1, s4_arg2, s3_v33, s3_v6, s3_v23, s3_arg9, s3_arg10, s3_arg11, s3_arg12, s3_arg0, s3_arg1, s3_arg2, s2_v23, s2_v6, s2_v13, s2_arg9, s2_arg10, s2_arg11, s2_arg12, s2_arg0, s2_arg1, s2_arg2, s1_v6, s1_v13, s1_arg0, s1_arg1, s1_arg2, s1_arg3, s1_arg4, s1_arg5, s1_arg6, s1_arg7, s1_arg8, s1_arg9, s1_arg10, s1_arg11, s1_arg12]
  rfl

end Cert.ReferenceIdeal.Stages

end
-- ==== Proof.RefRows.lean ====
/-
  The reference's update arrays, read at an index, are the row-wise perceptrons of the gathered rows.

  The host's products are plain sums at an index over the extended reals, a bias is spread over all rows, the
  positive part is taken entry by entry against a zero spread over the whole array, and a concatenation along
  the columns is the rows laid end to end. So entry (r, j) of the destinations' update array is updDst of
  rows r at j, and of the sources' update array updSrc of rows r at j: the same row functions the kernel's
  stored values are.
-/
import proofs.«179589_j70557722738855_1_alg».proof.Proof.RefFns
import proofs.«179589_j70557722738855_1_alg».proof.Proof.EdgeRows
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Fns Cert.EdgeRows
open Idealize.ShloMosaic Idealize.ShloMosaic.ValueIdx

/-- A bias spread over all rows: entry (r, j) is the bias's entry j. -/
theorem rbias_apply (b : FVec Ideal S128 .f32) (h₁ : S1x128.BroadcastsInDim S100000x128 ![0, 1])
    (h₂ : S128.BroadcastsInDim S1x128 ![1]) (r : Fin 100000) (j : Fin 128) :
    broadcastInDim S100000x128 ![0, 1] h₁ (broadcastInDim S1x128 ![1] h₂ b) (ix2 r j) = b (ix1 j) := by
  rw [broadcastInDim_apply _ h₁ _ (ix2 r j) (ix2 0 j) (fun a => by
    match a with
    | ⟨0, _⟩ => show (0 : ℕ) = if (1 : ℕ) = 1 then 0 else _; rw [if_pos rfl]
    | ⟨1, _⟩ => show j.val = if (128 : ℕ) = 1 then 0 else _; rw [if_neg (by decide)]; rfl)]
  exact broadcastInDim_apply _ h₂ b (ix2 0 j) (ix1 j) (fun a => by
    match a with
    | ⟨0, _⟩ => show j.val = if (128 : ℕ) = 1 then 0 else _; rw [if_neg (by decide)]; rfl)

/-- The positive part, entry by entry, against a zero spread over the array. -/
theorem rrelu_apply (y : FVec Ideal S100000x128 .f32) (h : S_.BroadcastsInDim S100000x128 ![]) (r : Fin 100000) (j : Fin 128) :
    maximumf y (broadcastInDim S100000x128 ![] h (constant S_ .f32 0x00000000#32)) (ix2 r j) = max (y (ix2 r j)) 0 := by
  show max (y (ix2 r j)) (broadcastInDim S100000x128 ![] h (constant S_ .f32 0x00000000#32) (ix2 r j)) = _
  rw [broadcastInDim_apply _ h _ (ix2 r j) ix0 (fun a => a.elim0)]
  show max (y (ix2 r j)) (Ideal.ofBits .f32 0x00000000#32) = _
  rw [Ideal.ofBits_zero_f32]

theorem lhs528_0 (i : S100000x128.Idx) (q : dot_S100000x528_S528x128_S100000x128_1_0_0_1_n_n.contr.Idx) :
    (dot_S100000x528_S528x128_S100000x128_1_0_0_1_n_n.lhsIdx i q 0).val = (i 0).val := by
  unfold DotDims.lhsIdx
  rw [dif_neg (show ¬(0 : Fin S100000x528.rank) ∈ dot_S100000x528_S528x128_S100000x128_1_0_0_1_n_n.lhsBatch by decide), dif_pos (show (0 : Fin S100000x528.rank) ∈ dot_S100000x528_S528x128_S100000x128_1_0_0_1_n_n.lhsNonContracting by decide)]
  rfl
theorem lhs528_1 (i : S100000x128.Idx) (q : dot_S100000x528_S528x128_S100000x128_1_0_0_1_n_n.contr.Idx) :
    (dot_S100000x528_S528x128_S100000x128_1_0_0_1_n_n.lhsIdx i q 1).val = (q ⟨0, by decide⟩).val :=
  dot_S100000x528_S528x128_S100000x128_1_0_0_1_n_n.lhsIdx_val_of_single rfl i q
theorem rhs528_0 (i : S100000x128.Idx) (q : dot_S100000x528_S528x128_S100000x128_1_0_0_1_n_n.contr.Idx) :
    (dot_S100000x528_S528x128_S100000x128_1_0_0_1_n_n.rhsIdx i q 0).val = (q ⟨0, by decide⟩).val :=
  dot_S100000x528_S528x128_S100000x128_1_0_0_1_n_n.rhsIdx_val_of_single rfl i q
theorem rhs528_1 (i : S100000x128.Idx) (q : dot_S100000x528_S528x128_S100000x128_1_0_0_1_n_n.contr.Idx) :
    (dot_S100000x528_S528x128_S100000x128_1_0_0_1_n_n.rhsIdx i q 1).val = (i 1).val := by
  unfold DotDims.rhsIdx
  rw [dif_neg (show ¬(1 : Fin S528x128.rank) ∈ dot_S100000x528_S528x128_S100000x128_1_0_0_1_n_n.rhsBatch by decide), dif_pos (show (1 : Fin S528x128.rank) ∈ dot_S100000x528_S528x128_S100000x128_1_0_0_1_n_n.rhsNonContracting by decide)]
  rfl

/-- The host's product of all edges' rows with a weight matrix, at (r, j): the inner product of row r with
    column j, over the 528 contracted positions. -/
theorem dot528_apply (l : FVec Ideal S100000x528 .f32) (w : FVec Ideal S528x128 .f32) (r : Fin 100000) (j : Fin 128) :
    Host.dotGeneral dot_S100000x528_S528x128_S100000x128_1_0_0_1_n_n none l w (ix2 r j) = ∑ k : Fin 528, l (ix2 r k) * w (ix2 k j) := by
  simp only [Host.dotGeneral]
  rw [Ideal.dotGeneral_apply, ← Equiv.sum_comp (ValueIdx.contrEquiv1 dot_S100000x528_S528x128_S100000x128_1_0_0_1_n_n 528 rfl rfl).symm]
  refine Finset.sum_congr rfl fun k _ => ?_
  have hk := ValueIdx.contrEquiv1_symm_val dot_S100000x528_S528x128_S100000x128_1_0_0_1_n_n 528 rfl rfl k
  have el : dot_S100000x528_S528x128_S100000x128_1_0_0_1_n_n.lhsIdx (ix2 r j) ((ValueIdx.contrEquiv1 dot_S100000x528_S528x128_S100000x128_1_0_0_1_n_n 528 rfl rfl).symm k) = ix2 r k := funext fun a => Fin.ext (by
    match a with
    | ⟨0, _⟩ => exact lhs528_0 _ _
    | ⟨1, _⟩ => exact (lhs528_1 _ _).trans hk)
  have er : dot_S100000x528_S528x128_S100000x128_1_0_0_1_n_n.rhsIdx (ix2 r j) ((ValueIdx.contrEquiv1 dot_S100000x528_S528x128_S100000x128_1_0_0_1_n_n 528 rfl rfl).symm k) = ix2 k j := funext fun a => Fin.ext (by
    match a with
    | ⟨0, _⟩ => exact (rhs528_0 _ _).trans hk
    | ⟨1, _⟩ => exact rhs528_1 _ _)
  rw [el, er]

/-- One linear layer of the reference on all edges, at (r, j). -/
theorem rlayer528_apply (x : FVec Ideal S100000x528 .f32) (W : FVec Ideal S528x128 .f32) (b : FVec Ideal S128 .f32)
    (h₁ : S1x128.BroadcastsInDim S100000x128 ![0, 1]) (h₂ : S128.BroadcastsInDim S1x128 ![1]) (r : Fin 100000) (j : Fin 128) :
    addf (Host.dotGeneral dot_S100000x528_S528x128_S100000x128_1_0_0_1_n_n none x W) (broadcastInDim S100000x128 ![0, 1] h₁ (broadcastInDim S1x128 ![1] h₂ b)) (ix2 r j)
      = dense (fun k => x (ix2 r k)) (fun k j => W (ix2 k j)) (fun j => b (ix1 j)) j := by
  show Host.dotGeneral dot_S100000x528_S528x128_S100000x128_1_0_0_1_n_n none x W (ix2 r j)
      + broadcastInDim S100000x128 ![0, 1] h₁ (broadcastInDim S1x128 ![1] h₂ b) (ix2 r j) = _
  rw [dot528_apply, rbias_apply]
  rfl

theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of all edges' rows with a weight matrix, at (r, j): the inner product of row r with
    column j, over the 128 contracted positions. -/
theorem dot128_apply (l : FVec Ideal S100000x128 .f32) (w : FVec Ideal S128x128 .f32) (r : Fin 100000) (j : Fin 128) :
    Host.dotGeneral dot_S100000x128_S128x128_S100000x128_1_0_0_1_n_n none l w (ix2 r j) = ∑ k : Fin 128, l (ix2 r k) * w (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-- One linear layer of the reference on all edges, at (r, j). -/
theorem rlayer128_apply (x : FVec Ideal S100000x128 .f32) (W : FVec Ideal S128x128 .f32) (b : FVec Ideal S128 .f32)
    (h₁ : S1x128.BroadcastsInDim S100000x128 ![0, 1]) (h₂ : S128.BroadcastsInDim S1x128 ![1]) (r : Fin 100000) (j : Fin 128) :
    addf (Host.dotGeneral dot_S100000x128_S128x128_S100000x128_1_0_0_1_n_n none x W) (broadcastInDim S100000x128 ![0, 1] h₁ (broadcastInDim S1x128 ![1] h₂ b)) (ix2 r j)
      = dense (fun k => x (ix2 r k)) (fun k j => W (ix2 k j)) (fun j => b (ix1 j)) j := by
  show Host.dotGeneral dot_S100000x128_S128x128_S100000x128_1_0_0_1_n_n none x W (ix2 r j)
      + broadcastInDim S100000x128 ![0, 1] h₁ (broadcastInDim S1x128 ![1] h₂ b) (ix2 r j) = _
  rw [dot128_apply, rbias_apply]
  rfl

theorem lhs256_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhs256_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem rhs256_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem rhs256_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The host's product of all edges' rows with a weight matrix, at (r, j): the inner product of row r with
    column j, over the 256 contracted positions. -/
theorem dot256_apply (l : FVec Ideal S100000x256 .f32) (w : FVec Ideal S256x128 .f32) (r : Fin 100000) (j : Fin 128) :
    Host.dotGeneral dot_S100000x256_S256x128_S100000x128_1_0_0_1_n_n none l w (ix2 r j) = ∑ k : Fin 256, l (ix2 r k) * w (ix2 k j) := by
  simp only [Host.dotGeneral]
  rw [Ideal.dotGeneral_apply, ← Equiv.sum_comp (ValueIdx.contrEquiv1 dot_S100000x256_S256x128_S100000x128_1_0_0_1_n_n 256 rfl rfl).symm]
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx (ix2 r j) ((ValueIdx.contrEquiv1 dot_S100000x256_S256x128_S100000x128_1_0_0_1_n_n 256 rfl rfl).symm k) = ix2 r k := funext fun a => Fin.ext (by
    match a with
    | ⟨0, _⟩ => exact lhs256_0 _ _
    | ⟨1, _⟩ => exact (lhs256_1 _ _).trans hk)
  have er : dot_S100000x256_S256x128_S100000x128_1_0_0_1_n_n.rhsIdx (ix2 r j) ((ValueIdx.contrEquiv1 dot_S100000x256_S256x128_S100000x128_1_0_0_1_n_n 256 rfl rfl).symm k) = ix2 k j := funext fun a => Fin.ext (by
    match a with
    | ⟨0, _⟩ => exact (rhs256_0 _ _).trans hk
    | ⟨1, _⟩ => exact rhs256_1 _ _)
  rw [el, er]

/-- One linear layer of the reference on all edges, at (r, j). -/
theorem rlayer256_apply (x : FVec Ideal S100000x256 .f32) (W : FVec Ideal S256x128 .f32) (b : FVec Ideal S128 .f32)
    (h₁ : S1x128.BroadcastsInDim S100000x128 ![0, 1]) (h₂ : S128.BroadcastsInDim S1x128 ![1]) (r : Fin 100000) (j : Fin 128) :
    addf (Host.dotGeneral dot_S100000x256_S256x128_S100000x128_1_0_0_1_n_n none x W) (broadcastInDim S100000x128 ![0, 1] h₁ (broadcastInDim S1x128 ![1] h₂ b)) (ix2 r j)
      = dense (fun k => x (ix2 r k)) (fun k j => W (ix2 k j)) (fun j => b (ix1 j)) j := by
  show Host.dotGeneral dot_S100000x256_S256x128_S100000x128_1_0_0_1_n_n none x W (ix2 r j)
      + broadcastInDim S100000x128 ![0, 1] h₁ (broadcastInDim S1x128 ![1] h₂ b) (ix2 r j) = _
  rw [dot256_apply, rbias_apply]
  rfl

/-- A two-layer perceptron of the reference on all edges, at (r, j): the row-wise perceptron of row r. -/
theorem rmlp528_apply (x : FVec Ideal S100000x528 .f32) (W₁ : FVec Ideal S528x128 .f32) (b₁ : FVec Ideal S128 .f32)
    (W₂ : FVec Ideal S128x128 .f32) (b₂ : FVec Ideal S128 .f32)
    (h₁ : S1x128.BroadcastsInDim S100000x128 ![0, 1]) (h₂ : S128.BroadcastsInDim S1x128 ![1])
    (h₃ : S_.BroadcastsInDim S100000x128 ![]) (r : Fin 100000) (j : Fin 128) :
    addf (Host.dotGeneral dot_S100000x128_S128x128_S100000x128_1_0_0_1_n_n none
        (maximumf (addf (Host.dotGeneral dot_S100000x528_S528x128_S100000x128_1_0_0_1_n_n none x W₁)
            (broadcastInDim S100000x128 ![0, 1] h₁ (broadcastInDim S1x128 ![1] h₂ b₁)))
          (broadcastInDim S100000x128 ![] h₃ (constant S_ .f32 0x00000000#32))) W₂)
      (broadcastInDim S100000x128 ![0, 1] h₁ (broadcastInDim S1x128 ![1] h₂ b₂)) (ix2 r j)
      = mlp (fun k => x (ix2 r k)) (fun k j => W₁ (ix2 k j)) (fun j => b₁ (ix1 j))
          (fun k j => W₂ (ix2 k j)) (fun j => b₂ (ix1 j)) j := by
  refine (rlayer128_apply _ W₂ b₂ h₁ h₂ r j).trans ?_
  unfold mlp
  refine congrArg (fun y => dense y _ _ j) (funext fun k => ?_)
  refine (rrelu_apply _ h₃ r k).trans ?_
  exact congrArg (fun y => max y 0) (rlayer528_apply x W₁ b₁ h₁ h₂ r k)

/-- A two-layer perceptron of the reference on all edges, at (r, j): the row-wise perceptron of row r. -/
theorem rmlp256_apply (x : FVec Ideal S100000x256 .f32) (W₁ : FVec Ideal S256x128 .f32) (b₁ : FVec Ideal S128 .f32)
    (W₂ : FVec Ideal S128x128 .f32) (b₂ : FVec Ideal S128 .f32)
    (h₁ : S1x128.BroadcastsInDim S100000x128 ![0, 1]) (h₂ : S128.BroadcastsInDim S1x128 ![1])
    (h₃ : S_.BroadcastsInDim S100000x128 ![]) (r : Fin 100000) (j : Fin 128) :
    addf (Host.dotGeneral dot_S100000x128_S128x128_S100000x128_1_0_0_1_n_n none
        (maximumf (addf (Host.dotGeneral dot_S100000x256_S256x128_S100000x128_1_0_0_1_n_n none x W₁)
            (broadcastInDim S100000x128 ![0, 1] h₁ (broadcastInDim S1x128 ![1] h₂ b₁)))
          (broadcastInDim S100000x128 ![] h₃ (constant S_ .f32 0x00000000#32))) W₂)
      (broadcastInDim S100000x128 ![0, 1] h₁ (broadcastInDim S1x128 ![1] h₂ b₂)) (ix2 r j)
      = mlp (fun k => x (ix2 r k)) (fun k j => W₁ (ix2 k j)) (fun j => b₁ (ix1 j))
          (fun k j => W₂ (ix2 k j)) (fun j => b₂ (ix1 j)) j := by
  refine (rlayer128_apply _ W₂ b₂ h₁ h₂ r j).trans ?_
  unfold mlp
  refine congrArg (fun y => dense y _ _ j) (funext fun k => ?_)
  refine (rrelu_apply _ h₃ r k).trans ?_
  exact congrArg (fun y => max y 0) (rlayer256_apply x W₁ b₁ h₁ h₂ r k)

/-- The weights as the reference reads them: the matrices by (row, column), a bias by its entry. -/
def refWeights (x5 : FVec Ideal S528x128 .f32) (x6 : FVec Ideal S128 .f32) (x7 : FVec Ideal S128x128 .f32)
    (x8 : FVec Ideal S128 .f32) (x9 : FVec Ideal S256x128 .f32) (x10 : FVec Ideal S128 .f32)
    (x11 : FVec Ideal S128x128 .f32) (x12 : FVec Ideal S128 .f32) : Weights :=
  weightsOf x5 (fun j => x6 (ix1 j)) x7 (fun j => x8 (ix1 j)) x9 (fun j => x10 (ix1 j)) x11 (fun j => x12 (ix1 j))

/-- The reference's message array at (r, j) is the message of rows r. -/
theorem msgArr_apply (s d : FVec Ideal S100000x128 .f32) (e : FVec Ideal S100000x172 .f32) (t : FVec Ideal S100000x100 .f32)
    (x5 : FVec Ideal S528x128 .f32) (x6 : FVec Ideal S128 .f32) (x7 : FVec Ideal S128x128 .f32) (x8 : FVec Ideal S128 .f32)
    (x9 : FVec Ideal S256x128 .f32) (x10 : FVec Ideal S128 .f32) (x11 : FVec Ideal S128x128 .f32) (x12 : FVec Ideal S128 .f32)
    (r : Fin 100000) (j : Fin 128) :
    msgArr s d e t x5 x6 x7 x8 (ix2 r j)
      = message (refWeights x5 x6 x7 x8 x9 x10 x11 x12) (row s r) (row d r) (row e r) (row t r) j := by
  unfold msgArr
  refine (rmlp528_apply _ x5 x6 x7 x8 _ _ _ r j).trans ?_
  unfold message
  exact congrArg (fun y => mlp y _ _ _ _ j) (funext fun k => concat4_apply s d e t _ r k)

/-- The reference's update array of an endpoint at (r, j) is the update perceptron of the endpoint's row r
    followed by row r of the messages. -/
theorem updArr_apply (a msg : FVec Ideal S100000x128 .f32)
    (x5 : FVec Ideal S528x128 .f32) (x6 : FVec Ideal S128 .f32) (x7 : FVec Ideal S128x128 .f32) (x8 : FVec Ideal S128 .f32)
    (x9 : FVec Ideal S256x128 .f32) (x10 : FVec Ideal S128 .f32) (x11 : FVec Ideal S128x128 .f32) (x12 : FVec Ideal S128 .f32)
    (r : Fin 100000) (j : Fin 128) :
    updArr a msg x9 x10 x11 x12 (ix2 r j)
      = mlp (join2 (row a r) (row msg r)) (refWeights x5 x6 x7 x8 x9 x10 x11 x12).uW₁ (refWeights x5 x6 x7 x8 x9 x10 x11 x12).ub₁
          (refWeights x5 x6 x7 x8 x9 x10 x11 x12).uW₂ (refWeights x5 x6 x7 x8 x9 x10 x11 x12).ub₂ j := by
  unfold updArr
  refine (rmlp256_apply _ x9 x10 x11 x12 _ _ _ r j).trans ?_
  exact congrArg (fun y => mlp y _ _ _ _ j) (funext fun k => concat2_apply a msg _ r k)

/-- The destinations' update array is, entry by entry, the destinations' new embeddings. -/
theorem updDst_eq (s d : FVec Ideal S100000x128 .f32) (e : FVec Ideal S100000x172 .f32) (t : FVec Ideal S100000x100 .f32)
    (x5 : FVec Ideal S528x128 .f32) (x6 : FVec Ideal S128 .f32) (x7 : FVec Ideal S128x128 .f32) (x8 : FVec Ideal S128 .f32)
    (x9 : FVec Ideal S256x128 .f32) (x10 : FVec Ideal S128 .f32) (x11 : FVec Ideal S128x128 .f32) (x12 : FVec Ideal S128 .f32) :
    updArr d (msgArr s d e t x5 x6 x7 x8) x9 x10 x11 x12 = updDstArr (refWeights x5 x6 x7 x8 x9 x10 x11 x12) s d e t := by
  funext i
  obtain ⟨r, j, rfl⟩ : ∃ (r : Fin 100000) (j : Fin 128), i = ix2 r j := ⟨i 0, i 1, eq_ix2 i⟩
  rw [updDstArr_ix2]
  refine (updArr_apply d _ x5 x6 x7 x8 x9 x10 x11 x12 r j).trans ?_
  unfold updDst
  exact congrArg (fun y => mlp (join2 (row d r) y) _ _ _ _ j) (funext fun q => msgArr_apply s d e t x5 x6 x7 x8 x9 x10 x11 x12 r q)

/-- The sources' update array is, entry by entry, the sources' new embeddings. -/
theorem updSrc_eq (s d : FVec Ideal S100000x128 .f32) (e : FVec Ideal S100000x172 .f32) (t : FVec Ideal S100000x100 .f32)
    (x5 : FVec Ideal S528x128 .f32) (x6 : FVec Ideal S128 .f32) (x7 : FVec Ideal S128x128 .f32) (x8 : FVec Ideal S128 .f32)
    (x9 : FVec Ideal S256x128 .f32) (x10 : FVec Ideal S128 .f32) (x11 : FVec Ideal S128x128 .f32) (x12 : FVec Ideal S128 .f32) :
    updArr s (msgArr s d e t x5 x6 x7 x8) x9 x10 x11 x12 = updSrcArr (refWeights x5 x6 x7 x8 x9 x10 x11 x12) s d e t := by
  funext i
  obtain ⟨r, j, rfl⟩ : ∃ (r : Fin 100000) (j : Fin 128), i = ix2 r j := ⟨i 0, i 1, eq_ix2 i⟩
  rw [updSrcArr_ix2]
  refine (updArr_apply s _ x5 x6 x7 x8 x9 x10 x11 x12 r j).trans ?_
  unfold updSrc
  exact congrArg (fun y => mlp (join2 (row s r) y) _ _ _ _ j) (funext fun q => msgArr_apply s d e t x5 x6 x7 x8 x9 x10 x11 x12 r q)

end Cert.ReferenceIdeal.Rows

end
-- ==== Proof.Bridge.lean ====
/-
  The two programs' results in common terms.

  Both results are lastWins of the destinations' and the sources' new embeddings of all edges, of the node table
  and of the two index arrays; the new embeddings are the row-wise perceptrons (updDstArr, updSrcArr) of the
  gathered source rows, the gathered destination rows, the edge features and the time features, with the weights
  read off the argument arrays. The kernel reaches this through its region and the lines around it, the
  reference through its six stretches; the gathers and the last stretch are the same host operations in both
  programs, so they are carried as the same functions and never opened.
-/
import proofs.«179589_j70557722738855_1_alg».proof.Proof.KernelRun
import proofs.«179589_j70557722738855_1_alg».proof.Proof.KernelEntry
import proofs.«179589_j70557722738855_1_alg».proof.Proof.RefStages
import proofs.«179589_j70557722738855_1_alg».proof.Proof.RefRows

set_option maxRecDepth 16384

noncomputable section

namespace Cert.Proof.Bridge

open Cert.EdgeRows
open Idealize.ShloMosaic Idealize.ShloMosaic.TcCoe Idealize.ShloMosaic.ValueIdx Idealize.SL.Sem Idealize.ShloMosaic.StableHlo

/-- The kernel's result: last write wins over the row-wise perceptrons of the gathered rows. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.result m c
      = Cert.ReferenceIdeal.Fns.lastWins (F := Ideal)
        (updDstArr (weightsOf (m ((c.tc : Thread Cert.KernelIdeal.nD Cert.KernelIdeal.τ).loc Cert.KernelIdeal.main_arg5)) (fun j => (m ((c.tc : Thread Cert.KernelIdeal.nD Cert.KernelIdeal.τ).loc Cert.KernelIdeal.main_arg6)) (ix1 j)) (m ((c.tc : Thread Cert.KernelIdeal.nD Cert.KernelIdeal.τ).loc Cert.KernelIdeal.main_arg7)) (fun j => (m ((c.tc : Thread Cert.KernelIdeal.nD Cert.KernelIdeal.τ).loc Cert.KernelIdeal.main_arg8)) (ix1 j)) (m ((c.tc : Thread Cert.KernelIdeal.nD Cert.KernelIdeal.τ).loc Cert.KernelIdeal.main_arg9)) (fun j => (m ((c.tc : Thread Cert.KernelIdeal.nD Cert.KernelIdeal.τ).loc Cert.KernelIdeal.main_arg10)) (ix1 j)) (m ((c.tc : Thread Cert.KernelIdeal.nD Cert.KernelIdeal.τ).loc Cert.KernelIdeal.main_arg11)) (fun j => (m ((c.tc : Thread Cert.KernelIdeal.nD Cert.KernelIdeal.τ).loc Cert.KernelIdeal.main_arg12)) (ix1 j)))
          (Cert.ReferenceIdeal.Fns.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Fns.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
        (updSrcArr (weightsOf (m ((c.tc : Thread Cert.KernelIdeal.nD Cert.KernelIdeal.τ).loc Cert.KernelIdeal.main_arg5)) (fun j => (m ((c.tc : Thread Cert.KernelIdeal.nD Cert.KernelIdeal.τ).loc Cert.KernelIdeal.main_arg6)) (ix1 j)) (m ((c.tc : Thread Cert.KernelIdeal.nD Cert.KernelIdeal.τ).loc Cert.KernelIdeal.main_arg7)) (fun j => (m ((c.tc : Thread Cert.KernelIdeal.nD Cert.KernelIdeal.τ).loc Cert.KernelIdeal.main_arg8)) (ix1 j)) (m ((c.tc : Thread Cert.KernelIdeal.nD Cert.KernelIdeal.τ).loc Cert.KernelIdeal.main_arg9)) (fun j => (m ((c.tc : Thread Cert.KernelIdeal.nD Cert.KernelIdeal.τ).loc Cert.KernelIdeal.main_arg10)) (ix1 j)) (m ((c.tc : Thread Cert.KernelIdeal.nD Cert.KernelIdeal.τ).loc Cert.KernelIdeal.main_arg11)) (fun j => (m ((c.tc : Thread Cert.KernelIdeal.nD Cert.KernelIdeal.τ).loc Cert.KernelIdeal.main_arg12)) (ix1 j)))
          (Cert.ReferenceIdeal.Fns.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.Fns.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  unfold Cert.KernelIdeal.Whole.result Cert.KernelIdeal.Blocks.dstNew Cert.KernelIdeal.Blocks.srcNew
  rw [Cert.KernelIdeal.Entry.entryWeights_eq, Cert.KernelIdeal.Entry.V_src, Cert.KernelIdeal.Entry.V_dst,
    Cert.KernelIdeal.Gen.V_main_arg3, Cert.KernelIdeal.Gen.V_main_arg4]
  rfl

set_option maxHeartbeats 1000000 in
/-- The reference's result: the same. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v67 m' c
      = Cert.ReferenceIdeal.Fns.lastWins (F := Ideal)
        (updDstArr (weightsOf (m' ((c.tc : Thread Cert.ReferenceIdeal.nD Cert.ReferenceIdeal.τ).loc Cert.ReferenceIdeal.main_arg5)) (fun j => (m' ((c.tc : Thread Cert.ReferenceIdeal.nD Cert.ReferenceIdeal.τ).loc Cert.ReferenceIdeal.main_arg6)) (ix1 j)) (m' ((c.tc : Thread Cert.ReferenceIdeal.nD Cert.ReferenceIdeal.τ).loc Cert.ReferenceIdeal.main_arg7)) (fun j => (m' ((c.tc : Thread Cert.ReferenceIdeal.nD Cert.ReferenceIdeal.τ).loc Cert.ReferenceIdeal.main_arg8)) (ix1 j)) (m' ((c.tc : Thread Cert.ReferenceIdeal.nD Cert.ReferenceIdeal.τ).loc Cert.ReferenceIdeal.main_arg9)) (fun j => (m' ((c.tc : Thread Cert.ReferenceIdeal.nD Cert.ReferenceIdeal.τ).loc Cert.ReferenceIdeal.main_arg10)) (ix1 j)) (m' ((c.tc : Thread Cert.ReferenceIdeal.nD Cert.ReferenceIdeal.τ).loc Cert.ReferenceIdeal.main_arg11)) (fun j => (m' ((c.tc : Thread Cert.ReferenceIdeal.nD Cert.ReferenceIdeal.τ).loc Cert.ReferenceIdeal.main_arg12)) (ix1 j)))
          (Cert.ReferenceIdeal.Fns.gathered (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) (Cert.ReferenceIdeal.Fns.gathered (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)))
        (updSrcArr (weightsOf (m' ((c.tc : Thread Cert.ReferenceIdeal.nD Cert.ReferenceIdeal.τ).loc Cert.ReferenceIdeal.main_arg5)) (fun j => (m' ((c.tc : Thread Cert.ReferenceIdeal.nD Cert.ReferenceIdeal.τ).loc Cert.ReferenceIdeal.main_arg6)) (ix1 j)) (m' ((c.tc : Thread Cert.ReferenceIdeal.nD Cert.ReferenceIdeal.τ).loc Cert.ReferenceIdeal.main_arg7)) (fun j => (m' ((c.tc : Thread Cert.ReferenceIdeal.nD Cert.ReferenceIdeal.τ).loc Cert.ReferenceIdeal.main_arg8)) (ix1 j)) (m' ((c.tc : Thread Cert.ReferenceIdeal.nD Cert.ReferenceIdeal.τ).loc Cert.ReferenceIdeal.main_arg9)) (fun j => (m' ((c.tc : Thread Cert.ReferenceIdeal.nD Cert.ReferenceIdeal.τ).loc Cert.ReferenceIdeal.main_arg10)) (ix1 j)) (m' ((c.tc : Thread Cert.ReferenceIdeal.nD Cert.ReferenceIdeal.τ).loc Cert.ReferenceIdeal.main_arg11)) (fun j => (m' ((c.tc : Thread Cert.ReferenceIdeal.nD Cert.ReferenceIdeal.τ).loc Cert.ReferenceIdeal.main_arg12)) (ix1 j)))
          (Cert.ReferenceIdeal.Fns.gathered (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) (Cert.ReferenceIdeal.Fns.gathered (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)))
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := by
  refine (Cert.ReferenceIdeal.Stages.after_ops (F := Ideal) (launchContents m' c)).trans ?_
  exact congrArg₂ (fun a b => Cert.ReferenceIdeal.Fns.lastWins (F := Ideal) a b _ _ _)
    (Cert.ReferenceIdeal.Rows.updDst_eq _ _ _ _ _ _ _ _ _ _ _ _) (Cert.ReferenceIdeal.Rows.updSrc_eq _ _ _ _ _ _ _ _ _ _ _ _)

end Cert.Proof.Bridge

end
-- ==== Proof.lean ====
/-
  Equivalence over the extended reals of a message-passing layer on a graph of 200000 nodes and 100000 edges:
  a kernel whose one region computes, for blocks of 2000 edges, the message perceptron and the two update
  perceptrons, against a reference that computes them for all edges at once with host operations.

  Both programs gather the endpoint rows of every edge, compute message = mlp(source, destination, edge
  features, time features), new destination = mlp(destination, message), new source = mlp(source, message) with
  the same weights, and write the new rows back, last write winning. Over the extended reals a change of float
  format is the identity and both kinds of matrix product are the plain sum ∑ k, x k * W k j, so entry (r, j)
  of either program's update arrays is the same row-wise function of rows r (EdgeRows, KernelRows, RefRows);
  the kernel's blocks tile the edges (Blocks); the gathers before and the write-back after are the same
  operations in both programs (KernelEntry, KernelTail, RefFns, RefStages). No law of arithmetic beyond the
  reading of the operations is needed, so the inputs' finiteness is never used. The idealization rewrote
  nothing, so preserves is trivial; the frames are the generated ones and the reference's run.
-/
import proofs.«179589_j70557722738855_1_alg».proof.Defs
import proofs.«179589_j70557722738855_1_alg».proof.Proof.Gen.Kernel
import proofs.«179589_j70557722738855_1_alg».proof.Proof.Gen.Kernel.Skeleton
import proofs.«179589_j70557722738855_1_alg».proof.Proof.Gen.Kernel.Launch
import proofs.«179589_j70557722738855_1_alg».proof.Proof.Gen.Kernel.Points
import proofs.«179589_j70557722738855_1_alg».proof.Proof.Gen.Kernel.Frame
import proofs.«179589_j70557722738855_1_alg».proof.Proof.Gen.KernelIdeal
import proofs.«179589_j70557722738855_1_alg».proof.Proof.Gen.KernelIdeal.Skeleton
import proofs.«179589_j70557722738855_1_alg».proof.Proof.Gen.KernelIdeal.Launch
import proofs.«179589_j70557722738855_1_alg».proof.Proof.Gen.KernelIdeal.Points
import proofs.«179589_j70557722738855_1_alg».proof.Proof.Gen.KernelIdeal.Frame
import proofs.«179589_j70557722738855_1_alg».proof.Proof.Gen.ReferenceIdeal
import proofs.«179589_j70557722738855_1_alg».proof.Proof.Gen.Pre_finite_inputs
import proofs.«179589_j70557722738855_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result at lastWins of the row-wise
    perceptrons of the gathered rows. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Bridge.reference_result]
  show _ = Cert.KernelIdeal.Whole.result m c
  rw [Bridge.kernel_result, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
